-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S4x256 : Shape := ⟨2, ![4, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S4x256 : S_.BroadcastsInDim S4x256 (![] : Fin 0 → Fin S4x256.rank)
  reducesTo_S4x256_S_d0_1 : S4x256.ReducesTo [0, 1] S_

variable [Facts]

def fn {F : FTy → Type} [FloatOps F] (main_arg0 : FVec F S8192x256 .f32) (main_arg1 : FVec F S4x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S4x256 .f32 := Host.absf main_arg1
  let main_cst_0 : FVec F S_ .f32 := constant S_ .f32 0x7F800000#32
  let main_v5 : FVec F S4x256 .f32 := broadcastInDim S4x256 ![] bcast_S_S4x256 main_cst_0
  let main_v6 : IVec S4x256 1 := cmpf .olt main_v4 main_v5
  let main_c_1 : IVec S_ 1 := constantI S_ 1 1#1
  let main_v7 : IVec S_ 1 := (fun x v => Host.reduce IntOp.andi x v reducesTo_S4x256_S_d0_1 h_S_) main_v6 main_c_1
  let main_v8 : IVec S_ 1 := andi main_v3 main_v7
  main_v8
-- ==== Kernel.lean ====
abbrev S8192x256 : Shape := ⟨2, ![8192, 256]⟩
abbrev S4x256 : Shape := ⟨2, ![4, 256]⟩
abbrev S8192x1024 : Shape := ⟨2, ![8192, 1024]⟩
abbrev S1024x256 : Shape := ⟨2, ![1024, 256]⟩
abbrev S1024x1024 : Shape := ⟨2, ![1024, 1024]⟩
abbrev S1x256 : Shape := ⟨2, ![1, 256]⟩
abbrev S1024 : Shape := ⟨1, ![1024]⟩
abbrev S1024x1 : Shape := ⟨2, ![1024, 1]⟩
abbrev S8192x8192 : Shape := ⟨2, ![8192, 8192]⟩

abbrev nBuf : Space → Nat
  | .hbm => 4
  | .vmem => 11
  | .smem => 0
  | _ => 0

abbrev bufTy : (tb : Table) → Fin (tcTables nBuf tb) → BufTy
  | .hbm, ⟨0, _⟩ => ⟨S8192x256, .f32⟩
  | .hbm, ⟨1, _⟩ => ⟨S4x256, .f32⟩
  | .hbm, ⟨2, _⟩ => ⟨S8192x1024, .bf16⟩
  | .hbm, ⟨3, _⟩ => ⟨S8192x8192, .f32⟩
  | .local _ .vmem, ⟨0, _⟩ => ⟨S1024x256, .f32⟩
  | .local _ .vmem, ⟨1, _⟩ => ⟨S1024x256, .f32⟩
  | .local _ .vmem, ⟨2, _⟩ => ⟨S4x256, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .f32⟩
  | .local _ .vmem, ⟨10, _⟩ => ⟨S1024x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S1024x256_S1024x256_0_0 : ∀ a, (![0, 0] : Fin 2 → Nat) a + S1024x256.size a ≤ S1024x256.size a
  h_S1024x256 : 0 < S1024x256.numel
  inb_S4x256_S1x256_0_0 : ∀ a, (![0, 0] : Fin 2 → Nat) a + S1x256.size a ≤ S4x256.size a
  h_S1x256 : 0 < S1x256.numel
  broadcasts_S1x256_S1024x256 : S1x256.Broadcasts S1024x256
  reduces_S1024x256_S1024 : S1024x256.Reduces [1] S1024
  shapeCasts_S1024_S1024x1 : S1024.ShapeCasts S1024x1
  broadcasts_S1024x1_S1024x256 : S1024x1.Broadcasts S1024x256
  bitsLt_bf16_f32 : FTy.bits .bf16 < FTy.bits .f32
  inb_S1024x1024_S1024x256_0_0 : ∀ a, (![0, 0] : Fin 2 → Nat) a + S1024x256.size a ≤ S1024x1024.size a
  packedbf16_S1024x1024_S1024x256_0_0 : (Rect.unit (s := S1024x1024) ![0, 0] S1024x256.size inb_S1024x1024_S1024x256_0_0).PackedRows (EltTy.packing .bf16)
  inb_S4x256_S1x256_1_0 : ∀ a, (![1, 0] : Fin 2 → Nat) a + S1x256.size a ≤ S4x256.size a
  inb_S1024x1024_S1024x256_0_256 : ∀ a, (![0, 256] : Fin 2 → Nat) a + S1024x256.size a ≤ S1024x1024.size a
  packedbf16_S1024x1024_S1024x256_0_256 : (Rect.unit (s := S1024x1024) ![0, 256] S1024x256.size inb_S1024x1024_S1024x256_0_256).PackedRows (EltTy.packing .bf16)
  inb_S4x256_S1x256_2_0 : ∀ a, (![2, 0] : Fin 2 → Nat) a + S1x256.size a ≤ S4x256.size a
  inb_S1024x1024_S1024x256_0_512 : ∀ a, (![0, 512] : Fin 2 → Nat) a + S1024x256.size a ≤ S1024x1024.size a
  packedbf16_S1024x1024_S1024x256_0_512 : (Rect.unit (s := S1024x1024) ![0, 512] S1024x256.size inb_S1024x1024_S1024x256_0_512).PackedRows (EltTy.packing .bf16)
  inb_S4x256_S1x256_3_0 : ∀ a, (![3, 0] : Fin 2 → Nat) a + S1x256.size a ≤ S4x256.size a
  inb_S1024x1024_S1024x256_0_768 : ∀ a, (![0, 768] : Fin 2 → Nat) a + S1024x256.size a ≤ S1024x1024.size a
  packedbf16_S1024x1024_S1024x256_0_768 : (Rect.unit (s := S1024x1024) ![0, 768] S1024x256.size inb_S1024x1024_S1024x256_0_768).PackedRows (EltTy.packing .bf16)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x256.size a ≤ S4x256.size a
  hwx0_1 : ∀ i : grid0.Coords, EltTy.bits .f32 = 32 ∨ (Rect.block (s := S4x256) S4x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x1024.size a
  hwx0_2 : ∀ i : grid0.Coords, EltTy.bits .bf16 = 32 ∨ (Rect.block (s := S8192x1024) S1024x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x1024.size a
  hwx1_0 : ∀ i : grid1.Coords, EltTy.bits .bf16 = 32 ∨ (Rect.block (s := S8192x1024) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S8192x1024.size a
  hwx1_1 : ∀ i : grid1.Coords, EltTy.bits .bf16 = 32 ∨ (Rect.block (s := S8192x1024) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x8192.size a
  hwx1_2 : ∀ i : grid1.Coords, EltTy.bits .f32 = 32 ∨ (Rect.block (s := S8192x8192) S1024x1024.size (cc1_transform_2 i) (hinb1_2 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x256 : Shape := ⟨2, ![8192, 256]⟩
abbrev S4x256 : Shape := ⟨2, ![4, 256]⟩
abbrev S4x1x256 : Shape := ⟨3, ![4, 1, 256]⟩
abbrev S1x8192x256 : Shape := ⟨3, ![1, 8192, 256]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S8192x4x256 : Shape := ⟨3, ![8192, 4, 256]⟩
abbrev S8192x1024 : Shape := ⟨2, ![8192, 1024]⟩
abbrev S1024x8192 : Shape := ⟨2, ![1024, 8192]⟩
abbrev S8192x8192 : Shape := ⟨2, ![8192, 8192]⟩

abbrev nBuf : Space → Nat
  | .hbm => 24
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S4x256, .f32⟩
  | .hbm, ⟨2, _⟩ => ⟨S4x1x256, .f32⟩
  | .hbm, ⟨3, _⟩ => ⟨S1x8192x256, .f32⟩
  | .hbm, ⟨4, _⟩ => ⟨S4x8192x256, .f32⟩
  | .hbm, ⟨5, _⟩ => ⟨S4x8192x256, .f32⟩
  | .hbm, ⟨6, _⟩ => ⟨S4x8192x256, .f32⟩
  | .hbm, ⟨7, _⟩ => ⟨S4x8192x256, .f32⟩
  | .hbm, ⟨8, _⟩ => ⟨S_, .f32⟩
  | .hbm, ⟨9, _⟩ => ⟨S4x8192, .f32⟩
  | .hbm, ⟨10, _⟩ => ⟨S4x8192x1, .f32⟩
  | .hbm, ⟨11, _⟩ => ⟨S_, .f32⟩
  | .hbm, ⟨12, _⟩ => ⟨S4x8192x1, .f32⟩
  | .hbm, ⟨13, _⟩ => ⟨S4x8192x1, .f32⟩
  | .hbm, ⟨14, _⟩ => ⟨S4x8192x1, .f32⟩
  | .hbm, ⟨15, _⟩ => ⟨S4x8192x256, .f32⟩
  | .hbm, ⟨16, _⟩ => ⟨S4x8192x256, .f32⟩
  | .hbm, ⟨17, _⟩ => ⟨S8192x4x256, .f32⟩
  | .hbm, ⟨18, _⟩ => ⟨S8192x1024, .f32⟩
  | .hbm, ⟨19, _⟩ => ⟨S1024x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_1 : Ref sig .tc := ⟨.hbm, 21, rfl⟩
abbrev main_v17 : Ref sig .tc := ⟨.hbm, 22, rfl⟩
abbrev main_v18 : Ref sig .tc := ⟨.hbm, 23, rfl⟩

abbrev nD : Nat := 1
abbrev τ : Topo := Topo.v7x

variable {F : FTy → Type} [FloatOps F]

class Facts₀ : Prop where
  bcast_S4x256_S4x1x256_0_2 : S4x256.BroadcastsInDim S4x1x256 (![0, 2] : Fin 2 → Fin S4x1x256.rank)
  bcast_S8192x256_S1x8192x256_1_2 : S8192x256.BroadcastsInDim S1x8192x256 (![1, 2] : Fin 2 → Fin S1x8192x256.rank)
  bcast_S4x1x256_S4x8192x256_0_1_2 : S4x1x256.BroadcastsInDim S4x8192x256 (![0, 1, 2] : Fin 3 → Fin S4x8192x256.rank)
  bcast_S1x8192x256_S4x8192x256_0_1_2 : S1x8192x256.BroadcastsInDim S4x8192x256 (![0, 1, 2] : Fin 3 → Fin S4x8192x256.rank)
  reducesTo_S4x8192x256_S4x8192_d2 : S4x8192x256.ReducesTo [2] S4x8192
  h_S_ : 0 < S_.numel
  bcast_S4x8192_S4x8192x1_0_1 : S4x8192.BroadcastsInDim S4x8192x1 (![0, 1] : Fin 2 → Fin S4x8192x1.rank)
  bcast_S_S4x8192x1 : S_.BroadcastsInDim S4x8192x1 (![] : Fin 0 → Fin S4x8192x1.rank)
  bcast_S4x8192x1_S4x8192x256_0_1_2 : S4x8192x1.BroadcastsInDim S4x8192x256 (![0, 1, 2] : Fin 3 → Fin S4x8192x256.rank)
  transposes_S4x8192x256_S8192x4x256_1_0_2 : S4x8192x256.Transposes [1, 0, 2] S8192x4x256
  shapeCasts_S8192x4x256_S8192x1024 : S8192x4x256.ShapeCasts S8192x1024
  transposes_S8192x1024_S1024x8192_1_0 : S8192x1024.Transposes [1, 0] S1024x8192
  bcast_S_S8192x8192 : S_.BroadcastsInDim S8192x8192 (![] : Fin 0 → Fin S8192x8192.rank)
  dot_S8192x1024_S1024x8192_S8192x8192_1_0_0_1_n_n_wf : DotDims.WF S8192x1024 S1024x8192 S8192x8192 [1] [0] [0] [1] [] []

variable [Facts₀]

def dot_S8192x1024_S1024x8192_S8192x8192_1_0_0_1_n_n : DotDims S8192x1024 S1024x8192 S8192x8192 where
  lhsContracting := [1]
  rhsContracting := [0]
  lhsNonContracting := [0]
  rhsNonContracting := [1]
  lhsBatch := []
  rhsBatch := []
  wf := dot_S8192x1024_S1024x8192_S8192x8192_1_0_0_1_n_n_wf

class Facts : Prop extends Facts₀ where

variable [Facts]
-- ==== Proof.Bits.NormBody.lean ====
/-
  Region 0 of the kernel program: the row normaliser.  One grid point takes a block of 1024 rows of `x`
  (1024 × 256) and the whole 4 × 256 table of attention vectors, and writes one 1024 × 1024 block of the
  normalised features: columns `256·h … 256·h + 255` hold head `h`'s rows `a_h ⊙ x_n`, each scaled by the reciprocal
  square root of `max (‖a_h ⊙ x_n‖², ε)`.  Stated for any float instance: what the body leaves in its output
  buffer as a function of the two input blocks, the body's triple, the region's proof data and its body obligation.
-/
import proofs.«102200_j24223615549685_1_alg».proof.Proof.Gen.Kernel.Launch
import proofs.«102200_j24223615549685_1_alg».proof.Proof.Gen.Kernel.Skeleton
import proofs.«102200_j24223615549685_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Norm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses -/

abbrev rX : Rect S1024x256 := Rect.unit (s := S1024x256) ![0, 0] S1024x256.size inb_S1024x256_S1024x256_0_0
abbrev rA0 : Rect S4x256 := Rect.unit (s := S4x256) ![0, 0] S1x256.size inb_S4x256_S1x256_0_0
abbrev rA1 : Rect S4x256 := Rect.unit (s := S4x256) ![1, 0] S1x256.size inb_S4x256_S1x256_1_0
abbrev rA2 : Rect S4x256 := Rect.unit (s := S4x256) ![2, 0] S1x256.size inb_S4x256_S1x256_2_0
abbrev rA3 : Rect S4x256 := Rect.unit (s := S4x256) ![3, 0] S1x256.size inb_S4x256_S1x256_3_0
abbrev rO0 : Rect S1024x1024 := Rect.unit (s := S1024x1024) ![0, 0] S1024x256.size inb_S1024x1024_S1024x256_0_0
abbrev rO1 : Rect S1024x1024 := Rect.unit (s := S1024x1024) ![0, 256] S1024x256.size inb_S1024x1024_S1024x256_0_256
abbrev rO2 : Rect S1024x1024 := Rect.unit (s := S1024x1024) ![0, 512] S1024x256.size inb_S1024x1024_S1024x256_0_512
abbrev rO3 : Rect S1024x1024 := Rect.unit (s := S1024x1024) ![0, 768] S1024x256.size inb_S1024x1024_S1024x256_0_768

/-! ## What the body leaves in the output window's buffer -/

/-- The output buffer after the body, from the two input blocks: its four column-band stores as pieces, the last
    store first; head `h`'s band is the payload of the rows block and row `h` of the table. -/
def normOut (x0 : Vec F S1024x256 .f32) (a : Vec F S4x256 .f32) : Vec F S1024x1024 .bf16 :=
  View.canon [⟨rO3, k0_pay1 (View.ld x0 rX) (View.ld a rA3)⟩, ⟨rO2, k0_pay4 (View.ld x0 rX) (View.ld a rA2)⟩,
    ⟨rO1, k0_pay3 (View.ld x0 rX) (View.ld a rA1)⟩, ⟨rO0, k0_pay2 (View.ld x0 rX) (View.ld a rA0)⟩]

/-- The four bands tile the buffer, so they cover it. -/
theorem normCover (p3 p2 p1 p0 : Vec F S1024x256 .bf16) (y : S1024x1024.Idx) :
    ∃ pc ∈ ([⟨rO3, p3⟩, ⟨rO2, p2⟩, ⟨rO1, p1⟩, ⟨rO0, p0⟩] : List (View.Piece (Elt F) S1024x1024 .bf16)), y ∈ pc.1.set :=
  View.cover_of_tiled [⟨rO3, p3⟩, ⟨rO2, p2⟩, ⟨rO1, p1⟩, ⟨rO0, p0⟩] S1024x256.size (by rfl) y

/-! ## The body's triple -/

set_option maxHeartbeats 4000000 in
/-- The body on whole staging memrefs, the inputs' at read contents `x0`, `a` and the output's at anything, runs to the
    continuation holding the inputs' as they were and the output's at `normOut x0 a`. -/
theorem sound_kernel (c : Dev nD) (E : Set ℕ) (i : grid0.Coords) (arg1 : Memref sig .tc .vmem S1024x256 .f32) (harg1 : arg1.IsWhole)
    (arg2 : Memref sig .tc .vmem S4x256 .f32) (harg2 : arg2.IsWhole) (arg3 : Memref sig .tc .vmem S1024x1024 .bf16) (harg3 : arg3.IsWhole)
    (x0 : Vec F S1024x256 .f32) (a : Vec F S4x256 .f32) (K : PUnit → sProp 𝕄) :
    iprop(owns (c : Thread nD τ) arg1 fullShare x0 ∗ owns (c : Thread nD τ) arg2 fullShare a ∗ (∃ d, owns (c : Thread nD τ) arg3 fullShare d)
        ∗ (iprop(owns (c : Thread nD τ) arg1 fullShare x0 ∗ owns (c : Thread nD τ) arg2 fullShare a ∗ owns (c : Thread nD τ) arg3 fullShare (normOut x0 a)) -∗ K ⟨⟩))
      ⊢ wp frame (wpE (defs₀ (F := F)) Variants.none c none) E (cc0__norm_kernel i arg1 harg1 arg2 harg2 arg3 harg3) K := by
  simp only [cc0__norm_kernel_eq_skeleton]; unfold cc0__norm_kernel_skel
  simp only [k0_part1_eq_skeleton]
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (normCover _ _ _ _)

/-! ## The pipeline's proof data -/

/-- The proof data of the region on core `c`: the arrays as the region finds them; after the body at point `t` each
    input's buffer at its block and the output's at `normOut` of the two input blocks; the class invariant (the scoped
    rest and the generator register, untouched); nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => normOut (blk V c 0 t) (blk V c 1 t)
  Φ _ := Pipeline.ΦA spec0 c
  q _ := fullShare
  owed _ := 0

theorem A_eq (c : Dev nD) (w : Fin cfg0.W) : (dat V c).A w = V c (Pipeline.arrRef spec0 w) := by
  dsimp only [dat]

theorem after0 (c : Dev nD) (t : Fin cfg0.N) : (dat V c).after 0 t = blk V c 0 t := by dsimp only [dat]
theorem after1 (c : Dev nD) (t : Fin cfg0.N) : (dat V c).after 1 t = blk V c 1 t := by dsimp only [dat]
theorem after2 (c : Dev nD) (t : Fin cfg0.N) : (dat V c).after 2 t = normOut (blk V c 0 t) (blk V c 1 t) := by dsimp only [dat]

/-- The rows window's current buffer holds its block at every point (it is fetched at every point). -/
theorem before0 (c : Dev nD) (t : Fin cfg0.N) (d) : (dat V c).before 0 t d = blk V c 0 t :=
  ((dat V c).before_in_eq_fetched 0 rfl (fun _ => rfl) (fun _ _ _ => rfl)
      (fun t => by rw [after0]; unfold Dat.blockOf blk; rw [A_eq]; try rfl) t d).trans
    (by unfold Dat.fetched Dat.blockOf blk; rw [A_eq]; try rfl)

/-- The table window's buffer holds the whole table at every point, though it is fetched at the first only: its block
    index never moves. -/
theorem before1 (c : Dev nD) (t : Fin cfg0.N) (d) : (dat V c).before 1 t d = blk V c 1 t :=
  ((dat V c).before_in_eq_fetched 1 rfl (fun _ => rfl) (fun _ _ _ => rfl)
      (fun t => by rw [after1]; unfold Dat.blockOf blk; rw [A_eq]; try rfl) t d).trans
    (by unfold Dat.fetched Dat.blockOf blk; rw [A_eq]; try rfl)

/-! ## The body obligation, at a generic point -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1]
  rw [show (dat V c).Φ t.succ = (dat V c).Φ t.castSucc from rfl,
    show (dat V c).owesAt () t.succ = (dat V c).owesAt () t.castSucc from rfl,
    after0, after1, after2]
  iintro ⟨HΦ, Ho, ⟨%d0, H0⟩, ⟨%d1, H1⟩, ⟨%d2, H2⟩⟩
  iapply (sound_kernel c Set.univ _ _ _ _ _ _ _ (blk V c 0 t) (blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.Norm

end
-- ==== Proof.Bits.GramBody.lean ====
/-
  Region 1 of the kernel program: the Gram product.  Grid point `(i, j)` takes row block `i` and row block `j` of
  the feature matrix (each 1024 × 1024, both windows on the one array) and writes block `(i, j)` of the result:
  the product of the first with the transpose of the second, times one quarter.  Stated for any float instance:
  what the body leaves in its output buffer as a function of the two input blocks, the body's triple, the
  region's proof data — the feature array held half by each of the two windows that read it — and its body
  obligation.
-/
import proofs.«102200_j24223615549685_1_alg».proof.Proof.Gen.Kernel.Launch
import proofs.«102200_j24223615549685_1_alg».proof.Proof.Gen.Kernel.Skeleton
import proofs.«102200_j24223615549685_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gram

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses -/

abbrev rW : Rect S1024x1024 := Rect.unit (s := S1024x1024) ![0, 0] S1024x1024.size inb_S1024x1024_S1024x1024_0_0

/-! ## What the body leaves in the output window's buffer -/

/-- The output buffer after the body, from the two input blocks: its one whole-block store. -/
def gramOut (p q : Vec F S1024x1024 .bf16) : Vec F S1024x1024 .f32 :=
  View.canon [⟨rW, k1_pay1 (View.ld p rW) (View.ld q rW)⟩]

theorem gramCover (p0 : Vec F S1024x1024 .f32) (y : S1024x1024.Idx) :
    ∃ pc ∈ ([⟨rW, p0⟩] : List (View.Piece (Elt F) S1024x1024 .f32)), y ∈ pc.1.set :=
  View.cover_of_tiled [⟨rW, p0⟩] S1024x1024.size (by rfl) y

/-! ## The body's triple -/

set_option maxHeartbeats 4000000 in
/-- The body on whole staging memrefs, the inputs' at read contents `p`, `q` and the output's at anything, runs to the
    continuation holding the inputs' as they were and the output's at `gramOut p q`. -/
theorem sound_kernel (c : Dev nD) (E : Set ℕ) (i : grid1.Coords) (arg2 : Memref sig .tc .vmem S1024x1024 .bf16) (harg2 : arg2.IsWhole)
    (arg3 : Memref sig .tc .vmem S1024x1024 .bf16) (harg3 : arg3.IsWhole) (arg4 : Memref sig .tc .vmem S1024x1024 .f32) (harg4 : arg4.IsWhole)
    (p q : Vec F S1024x1024 .bf16) (K : PUnit → sProp 𝕄) :
    iprop(owns (c : Thread nD τ) arg2 fullShare p ∗ owns (c : Thread nD τ) arg3 fullShare q ∗ (∃ d, owns (c : Thread nD τ) arg4 fullShare d)
        ∗ (iprop(owns (c : Thread nD τ) arg2 fullShare p ∗ owns (c : Thread nD τ) arg3 fullShare q ∗ owns (c : Thread nD τ) arg4 fullShare (gramOut p q)) -∗ K ⟨⟩))
      ⊢ wp frame (wpE (defs₀ (F := F)) Variants.none c none) E (cc1__mm_kernel i arg2 harg2 arg3 harg3 arg4 harg4) K := by
  simp only [cc1__mm_kernel_eq_skeleton]; unfold cc1__mm_kernel_skel
  unfold owns
  iintro ⟨⟨%f2, %hf2, H2⟩, ⟨%f3, %hf3, H3⟩, ⟨%d4, %f4, -, H4⟩, Hk⟩
  subst hf2; subst hf3
  sl_exec
  sl_step
  iapply Hk
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (gramCover _)

/-! ## The pipeline's proof data -/

/-- The proof data of the region on core `c`: the arrays as the region finds them; after the body at point `t` each
    input's buffer at its block and the output's at `gramOut` of the two input blocks; the class invariant; nothing owed;
    the feature array, which both input windows read, held half by each. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => gramOut (blk V c 0 t) (blk V c 1 t)
  Φ _ := Pipeline.ΦA spec1 c
  q w := match w with
    | ⟨0, _⟩ => fullShare.left
    | ⟨1, _⟩ => fullShare.right
    | ⟨2, _⟩ => fullShare
  owed _ := 0

theorem A_eq (c : Dev nD) (w : Fin cfg1.W) : (dat V c).A w = V c (Pipeline.arrRef spec1 w) := by
  dsimp only [dat]

theorem after0 (c : Dev nD) (t : Fin cfg1.N) : (dat V c).after 0 t = blk V c 0 t := by dsimp only [dat]
theorem after1 (c : Dev nD) (t : Fin cfg1.N) : (dat V c).after 1 t = blk V c 1 t := by dsimp only [dat]
theorem after2 (c : Dev nD) (t : Fin cfg1.N) : (dat V c).after 2 t = gramOut (blk V c 0 t) (blk V c 1 t) := by dsimp only [dat]

/-- The left window's buffer holds row block `i` at every point, though it is fetched only when `i` changes. -/
theorem before0 (c : Dev nD) (t : Fin cfg1.N) (d) : (dat V c).before 0 t d = blk V c 0 t :=
  ((dat V c).before_in_eq_fetched 0 rfl (fun _ => rfl) (fun _ _ _ => rfl)
      (fun t => by rw [after0]; unfold Dat.blockOf blk; rw [A_eq]; try rfl) t d).trans
    (by unfold Dat.fetched Dat.blockOf blk; rw [A_eq]; try rfl)

/-- The right window's buffer holds row block `j` at every point. -/
theorem before1 (c : Dev nD) (t : Fin cfg1.N) (d) : (dat V c).before 1 t d = blk V c 1 t :=
  ((dat V c).before_in_eq_fetched 1 rfl (fun _ => rfl) (fun _ _ _ => rfl)
      (fun t => by rw [after1]; unfold Dat.blockOf blk; rw [A_eq]; try rfl) t d).trans
    (by unfold Dat.fetched Dat.blockOf blk; rw [A_eq]; try rfl)

/-! ## The body obligation, at a generic point -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1]
  rw [show (dat V c).Φ t.succ = (dat V c).Φ t.castSucc from rfl,
    show (dat V c).owesAt () t.succ = (dat V c).owesAt () t.castSucc from rfl,
    after0, after1, after2]
  iintro ⟨HΦ, Ho, ⟨%d0, H0⟩, ⟨%d1, H1⟩, ⟨%d2, H2⟩⟩
  iapply (sound_kernel c Set.univ _ _ _ _ _ _ _ (blk V c 0 t) (blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W1, bigSep_W1]
  exact sound_body V c t

end Cert.Kernel.Gram

end
-- ==== Proof.Bits.GramShare.lean ====
/-
  The feature array of region 1 is read through two windows at once.  The core holds it whole when the region is
  entered; the region's proof data hold it half by each window.  Splitting the whole into the two halves at entry,
  and joining the halves again at exit, turns the core's unscoped buffers into the region's arrays and back.
-/
import proofs.«102200_j24223615549685_1_alg».proof.Proof.Gen.Kernel.Launch
import Idealize.ShloMosaic.Lib.Pipeline.FrameBody
import Idealize.ShloMosaic.Lib.Pipeline.RegionsLoop
import Idealize.ShloMosaic.Lib.Pipeline.FrameSuffix
import Idealize.ShloMosaic.Rules.PointsTo

set_option maxRecDepth 16384

noncomputable section

namespace Cert.Kernel.Gram

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

local notation "𝕄" => MT nD τ sig Unit (Elt F) ℕ (UR sig nD τ) ℕ

/-! ## The two buffers behind the three windows -/

/-- Windows 0 and 1 lie on the feature array and window 2 on the result: two buffers in all. -/
theorem image_arrRef : Finset.univ.image (Pipeline.arrRef spec1) = {main_v0, main_v1} := by decide

/-- The buffers behind the windows, held whole: the feature array and the result. -/
theorem arrBufs_eq (c : Dev nD) (Vc : (b : Ref sig .tc) → Buf (Elt F) ((c : Thread nD τ).loc b)) :
    (Pipeline.arrBufs (Ix := Unit) (Name := ℕ) (U := UR sig nD τ) (Lvl := ℕ) spec1 c Vc : sProp 𝕄)
      = iprop((((c : Thread nD τ).loc main_v0) ↦{fullShare} Vc main_v0) ∗ (((c : Thread nD τ).loc main_v1) ↦{fullShare} Vc main_v1)) := by
  unfold Pipeline.arrBufs
  rw [image_arrRef, bigSep_insert (by decide), bigSep_singleton]
  rfl

/-! ## The shares the region's proof data hold the windows' arrays at -/

section Shares

variable (c : Dev nD) (dat : Dat τ (Elt F) Unit ℕ (UR sig nD τ) ℕ cfg1 c)

/-- Window 0 reads: it holds its own share. -/
theorem share0 (hq0 : dat.q 0 = fullShare.left) : dat.share 0 = fullShare.left := by
  unfold Dat.share; rw [if_neg (by decide)]; exact hq0

/-- Window 1 reads: it holds its own share. -/
theorem share1 (hq1 : dat.q 1 = fullShare.right) : dat.share 1 = fullShare.right := by
  unfold Dat.share; rw [if_neg (by decide)]; exact hq1

/-- Window 2 writes: it holds the result whole. -/
theorem share2 : dat.share 2 = fullShare := by
  unfold Dat.share; rw [if_pos (by decide)]

/-- The region's arrays window by window: the feature array's left half, its right half, the result whole. -/
theorem arrays_eq (hq0 : dat.q 0 = fullShare.left) (hq1 : dat.q 1 = fullShare.right)
    (G : (w : Fin cfg1.W) → Buf (Elt F) ((cfg1.win w).arr.view.loc (c : Thread nD τ))) :
    dat.arrays G = iprop(((cfg1.win 0).arr.view.loc (c : Thread nD τ) ↦{fullShare.left} G 0)
      ∗ ((cfg1.win 1).arr.view.loc (c : Thread nD τ) ↦{fullShare.right} G 1)
      ∗ ((cfg1.win 2).arr.view.loc (c : Thread nD τ) ↦{fullShare} G 2)) := by
  unfold Dat.arrays
  -- windows 0 and 1 lie on one array, so one equation gives both their element sets
  rw [bigSep_W1, (arr_whole1 0).set_eq_univ, (arr_whole1 2).set_eq_univ,
    share0 c dat hq0, share1 c dat hq1, share2 c dat]

end Shares

/-! ## Entry and exit -/

theorem arrays_of_bufs (c : Dev nD) (dat : Dat τ (Elt F) Unit ℕ (UR sig nD τ) ℕ cfg1 c)
    (hq0 : dat.q 0 = fullShare.left) (hq1 : dat.q 1 = fullShare.right)
    (Vc : (b : Ref sig .tc) → Buf (Elt F) ((c : Thread nD τ).loc b))
    (G : (w : Fin cfg1.W) → Buf (Elt F) ((cfg1.win w).arr.view.loc (c : Thread nD τ)))
    (hG : ∀ w, G w = Vc (Pipeline.arrRef spec1 w)) :
    (Pipeline.arrBufs (Ix := Unit) (Name := ℕ) (U := UR sig nD τ) (Lvl := ℕ) spec1 c Vc : sProp 𝕄) ⊢ dat.arrays G := by
  rw [arrBufs_eq c Vc, arrays_eq c dat hq0 hq1 G, hG 0, hG 1, hG 2]
  iintro ⟨H0, H2⟩
  -- the feature array whole is its left half and its right half, at the same contents
  ihave H0 := (pointsTo_share (PosShare.mem_left_op_right fullShare)).1 $$ H0
  icases H0 with ⟨Ha, Hb⟩
  isplitl [Ha]; · iexact Ha
  isplitl [Hb]; · iexact Hb
  iexact H2

theorem bufs_of_arrays (c : Dev nD) (dat : Dat τ (Elt F) Unit ℕ (UR sig nD τ) ℕ cfg1 c)
    (hq0 : dat.q 0 = fullShare.left) (hq1 : dat.q 1 = fullShare.right)
    (Vc : (b : Ref sig .tc) → Buf (Elt F) ((c : Thread nD τ).loc b))
    (G : (w : Fin cfg1.W) → Buf (Elt F) ((cfg1.win w).arr.view.loc (c : Thread nD τ)))
    (hG : ∀ w, G w = Vc (Pipeline.arrRef spec1 w)) :
    dat.arrays G ⊢ (Pipeline.arrBufs (Ix := Unit) (Name := ℕ) (U := UR sig nD τ) (Lvl := ℕ) spec1 c Vc : sProp 𝕄) := by
  rw [arrBufs_eq c Vc, arrays_eq c dat hq0 hq1 G, hG 0, hG 1, hG 2]
  iintro ⟨Ha, Hb, H2⟩
  -- the two halves of the feature array, at the same contents, are the array whole
  ihave H0 := (pointsTo_share (PosShare.mem_left_op_right fullShare)).2 $$ [Ha Hb]
  · isplitl [Ha]; · iexact Ha
    iexact Hb
  isplitl [H0]; · iexact H0
  iexact H2

theorem arrays_of_unscopedBufs (c : Dev nD) (dat : Dat τ (Elt F) Unit ℕ (UR sig nD τ) ℕ cfg1 c)
    (hq0 : dat.q 0 = fullShare.left) (hq1 : dat.q 1 = fullShare.right)
    (Vc : (b : Ref sig .tc) → Buf (Elt F) ((c : Thread nD τ).loc b))
    (G : (w : Fin cfg1.W) → Buf (Elt F) ((cfg1.win w).arr.view.loc (c : Thread nD τ)))
    (hG : ∀ w, G w = Vc (Pipeline.arrRef spec1 w)) :
    (unscopedBufs c Vc : sProp 𝕄) ⊢ iprop(dat.arrays G ∗ Pipeline.unscopedRest (Ix := Unit) (Name := ℕ) (U := UR sig nD τ) (Lvl := ℕ) spec1 c Vc) := by
  rw [Pipeline.unscopedBufs_split₀ cfgs 1 winFacts₀1.arr_unscoped c Vc]
  exact sep_mono (arrays_of_bufs c dat hq0 hq1 Vc G hG) .rfl

theorem unscopedBufs_of_arrays (c : Dev nD) (dat : Dat τ (Elt F) Unit ℕ (UR sig nD τ) ℕ cfg1 c)
    (hq0 : dat.q 0 = fullShare.left) (hq1 : dat.q 1 = fullShare.right)
    (Vc Vc' : (b : Ref sig .tc) → Buf (Elt F) ((c : Thread nD τ).loc b))
    (G : (w : Fin cfg1.W) → Buf (Elt F) ((cfg1.win w).arr.view.loc (c : Thread nD τ)))
    (hG : ∀ w, G w = Vc' (Pipeline.arrRef spec1 w))
    (hrest : ∀ b, b ∉ Finset.univ.image (Pipeline.arrRef spec1) → Vc' b = Vc b) :
    iprop(dat.arrays G ∗ Pipeline.unscopedRest (Ix := Unit) (Name := ℕ) (U := UR sig nD τ) (Lvl := ℕ) spec1 c Vc) ⊢ (unscopedBufs c Vc' : sProp 𝕄) := by
  rw [Pipeline.unscopedBufs_split₀ cfgs 1 winFacts₀1.arr_unscoped c Vc']
  refine sep_mono (bufs_of_arrays c dat hq0 hq1 Vc' G hG) (Entails.of_eq ?_)
  -- off the windows' arrays the two valuations agree
  unfold Pipeline.unscopedRest
  exact bigSep_congr fun b hb => by rw [hrest b (Finset.mem_sdiff.mp hb).2]

end Cert.Kernel.Gram

end
-- ==== Proof.Bits.Regs.lean ====
/-
  The whole program: two regions in a row.  Region 0 turns the launch contents of `x` and of the table into the
  feature array; region 1 turns the feature array into the result.  Between the items core `c` holds every
  unscoped buffer whole: at the launch contents, then with the feature array at what region 0's write-backs
  leave, then with the result at what region 1's leave.  Each region's record splits its arrays out of that
  holding on entry and puts them back on exit; the feature array, read by two windows of region 1, goes in as
  two halves and comes back joined.  The run: every weakly fair execution ends, the result array holds region 1's
  final contents, and both arguments are as launched — for any float instance.
-/
import proofs.«102200_j24223615549685_1_alg».proof.Proof.Bits.NormBody
import proofs.«102200_j24223615549685_1_alg».proof.Proof.Bits.GramBody
import proofs.«102200_j24223615549685_1_alg».proof.Proof.Bits.GramShare

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items -/

/-- Core `c`'s buffers at launch. -/
abbrev W0 : Dev nD → Valuation τ sig (Elt F) := fun c b => m (c, b)
/-- The same read at the TensorCore's references: what region 0 is entered at. -/
abbrev E0 : (c : Dev nD) → (b : Ref sig .tc) → Buf (Elt F) ((c : Thread nD τ).loc b) := fun c b => W0 m c b
/-- After region 0: the feature array at what its eight write-backs leave, every other buffer as launched. -/
def W1 (c : Dev nD) : Valuation τ sig (Elt F) :=
  Function.update (W0 m c) (Proc.devRef .tc main_v0) ((Norm.dat (E0 m) c).arrAt 2 cfg0.N)
abbrev E1 : (c : Dev nD) → (b : Ref sig .tc) → Buf (Elt F) ((c : Thread nD τ).loc b) := fun c b => W1 m c b
/-- After region 1: the result array at what its sixty-four write-backs leave, every other buffer as before. -/
def W2 (c : Dev nD) : Valuation τ sig (Elt F) :=
  Function.update (W1 m c) (Proc.devRef .tc main_v1) ((Gram.dat (E1 m) c).arrAt 2 cfg1.N)
abbrev E2 : (c : Dev nD) → (b : Ref sig .tc) → Buf (Elt F) ((c : Thread nD τ).loc b) := fun c b => W2 m c b

theorem W1_v0 (c : Dev nD) : W1 m c (Proc.devRef .tc main_v0) = (Norm.dat (E0 m) c).arrAt 2 cfg0.N := by
  unfold W1; exact Function.update_self _ _ _
theorem W1_of_ne (c : Dev nD) (b : Ref sig .tc) (h : b ≠ main_v0) : W1 m c (Proc.devRef .tc b) = W0 m c (Proc.devRef .tc b) := by
  unfold W1; exact Function.update_of_ne (StableHlo.devRef_ne_of_ne h) _ _
theorem W2_v1 (c : Dev nD) : W2 m c (Proc.devRef .tc main_v1) = (Gram.dat (E1 m) c).arrAt 2 cfg1.N := by
  unfold W2; exact Function.update_self _ _ _
theorem W2_of_ne (c : Dev nD) (b : Ref sig .tc) (h : b ≠ main_v1) : W2 m c (Proc.devRef .tc b) = W1 m c (Proc.devRef .tc b) := by
  unfold W2; exact Function.update_of_ne (StableHlo.devRef_ne_of_ne h) _ _

/-- Neither region writes an argument. -/
theorem W2_main_arg0 (c : Dev nD) : W2 m c (Proc.devRef .tc main_arg0) = m ((c : Thread nD τ).loc main_arg0) :=
  (W2_of_ne m c main_arg0 (by decide)).trans ((W1_of_ne m c main_arg0 (by decide)).trans rfl)
theorem W2_main_arg1 (c : Dev nD) : W2 m c (Proc.devRef .tc main_arg1) = m ((c : Thread nD τ).loc main_arg1) :=
  (W2_of_ne m c main_arg1 (by decide)).trans ((W1_of_ne m c main_arg1 (by decide)).trans rfl)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => Norm.dat (E0 m) c
  | ⟨1, _⟩ => fun c => Gram.dat (E1 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev Tₙ (c : Dev nD) : sProp 𝕄 := iprop(StableHlo.held (c : Thread nD τ) (Pipeline.ucRefs τ sig) (W2 m c) ∗ ∃ r, prngReg c r)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## What each region's arrays hold at its exit, against the next valuation -/

theorem hF0 (c : Dev nD) (w : Fin cfg0.W) : (Norm.dat (E0 m) c).arrAt w cfg0.N = E1 m c (Pipeline.arrRef spec0 w) := by
  match w with
  | ⟨0, _⟩ => exact (((Norm.dat (E0 m) c).arrAt_in 0 rfl _).trans (Norm.A_eq (E0 m) c 0)).trans (W1_of_ne m c main_arg0 (by decide)).symm
  | ⟨1, _⟩ => exact (((Norm.dat (E0 m) c).arrAt_in 1 rfl _).trans (Norm.A_eq (E0 m) c 1)).trans (W1_of_ne m c main_arg1 (by decide)).symm
  | ⟨2, _⟩ => exact (W1_v0 m c).symm
theorem hrest0 (c : Dev nD) : ∀ b, b ∉ Finset.univ.image (Pipeline.arrRef spec0) → E1 m c b = E0 m c b :=
  fun b hb => W1_of_ne m c b fun e => hb (Finset.mem_image.mpr ⟨2, Finset.mem_univ _, e.symm⟩)

theorem hF1 (c : Dev nD) (w : Fin cfg1.W) : (Gram.dat (E1 m) c).arrAt w cfg1.N = E2 m c (Pipeline.arrRef spec1 w) := by
  match w with
  | ⟨0, _⟩ => exact (((Gram.dat (E1 m) c).arrAt_in 0 rfl _).trans (Gram.A_eq (E1 m) c 0)).trans (W2_of_ne m c main_v0 (by decide)).symm
  | ⟨1, _⟩ => exact (((Gram.dat (E1 m) c).arrAt_in 1 rfl _).trans (Gram.A_eq (E1 m) c 1)).trans (W2_of_ne m c main_v0 (by decide)).symm
  | ⟨2, _⟩ => exact (W2_v1 m c).symm
theorem hrest1 (c : Dev nD) : ∀ b, b ∉ Finset.univ.image (Pipeline.arrRef spec1) → E2 m c b = E1 m c b :=
  fun b hb => W2_of_ne m c b fun e => hb (Finset.mem_image.mpr ⟨2, Finset.mem_univ _, e.symm⟩)

/-! ## The regions as segments -/

set_option backward.isDefEq.respectTransparency.types false in
/-- REGION 0 over the thread state: entered from every unscoped buffer at the launch contents, left with the
    feature array at its final contents.  Its arrays are distinct buffers, each held whole. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Norm.body_obligation (E0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered with the feature array at region 0's final contents, left with the
    result array at its own.  The feature array goes in as two halves, one per window that reads it, and comes
    back whole. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Gram.body_obligation (E1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Gram.arrays_of_unscopedBufs c (pdats m 1 c) rfl rfl (E1 m c) ((pdats m 1 c).arrAt · 0) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Gram.unscopedBufs_of_arrays c (pdats m 1 c) rfl rfl (E1 m c) (E2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m), .region (reg1 m) ]

theorem main_run (c : Dev nD) : main (F := F) c = Pipeline.Seg.run (segs m) :=
  main_segs adm (pdats m) () 𝒱₀ L lv (reg0 m) (reg1 m) c

set_option backward.isDefEq.respectTransparency.types false in
/-- THE RUN, at any float instance: from any memory with zero counters every weakly fair execution of @main on
    the TensorCores terminates, nothing faulting; the result array ends at region 1's final contents and the two
    arguments as launched. -/
theorem run : θ_run defs (onTc (τ := τ) (main (F := F))) ⟨m, fun _ => 0, ρ⟩ (fun r => ∀ c : Dev nD,
      r.2.mem ((c.tc : Thread nD τ).loc main_v1) = (Gram.dat (E1 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c =>
      ⟨(h c _ (mem_uc main_v1 (by decide))).trans (W2_v1 m c),
       (h c _ (mem_uc main_arg0 (by decide))).trans (W2_main_arg0 m c),
       (h c _ (mem_uc main_arg1 (by decide))).trans (W2_main_arg1 m c)⟩)

end Cert.Kernel.Whole

end
-- ==== Proof.NormBody.lean ====
/-
  Region 0 of the kernel program: the row normaliser.  One grid point takes a block of 1024 rows of `x`
  (1024 × 256) and the whole 4 × 256 table of attention vectors, and writes one 1024 × 1024 block of the
  normalised features: columns `256·h … 256·h + 255` hold head `h`'s rows `a_h ⊙ x_n`, each scaled by the reciprocal
  square root of `max (‖a_h ⊙ x_n‖², ε)`.  Stated for any float instance: what the body leaves in its output
  buffer as a function of the two input blocks, the body's triple, the region's proof data and its body obligation.
-/
import proofs.«102200_j24223615549685_1_alg».proof.Proof.Gen.KernelIdeal.Launch
import proofs.«102200_j24223615549685_1_alg».proof.Proof.Gen.KernelIdeal.Skeleton
import proofs.«102200_j24223615549685_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Norm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses -/

abbrev rX : Rect S1024x256 := Rect.unit (s := S1024x256) ![0, 0] S1024x256.size inb_S1024x256_S1024x256_0_0
abbrev rA0 : Rect S4x256 := Rect.unit (s := S4x256) ![0, 0] S1x256.size inb_S4x256_S1x256_0_0
abbrev rA1 : Rect S4x256 := Rect.unit (s := S4x256) ![1, 0] S1x256.size inb_S4x256_S1x256_1_0
abbrev rA2 : Rect S4x256 := Rect.unit (s := S4x256) ![2, 0] S1x256.size inb_S4x256_S1x256_2_0
abbrev rA3 : Rect S4x256 := Rect.unit (s := S4x256) ![3, 0] S1x256.size inb_S4x256_S1x256_3_0
abbrev rO0 : Rect S1024x1024 := Rect.unit (s := S1024x1024) ![0, 0] S1024x256.size inb_S1024x1024_S1024x256_0_0
abbrev rO1 : Rect S1024x1024 := Rect.unit (s := S1024x1024) ![0, 256] S1024x256.size inb_S1024x1024_S1024x256_0_256
abbrev rO2 : Rect S1024x1024 := Rect.unit (s := S1024x1024) ![0, 512] S1024x256.size inb_S1024x1024_S1024x256_0_512
abbrev rO3 : Rect S1024x1024 := Rect.unit (s := S1024x1024) ![0, 768] S1024x256.size inb_S1024x1024_S1024x256_0_768

/-! ## What the body leaves in the output window's buffer -/

/-- The output buffer after the body, from the two input blocks: its four column-band stores as pieces, the last
    store first; head `h`'s band is the payload of the rows block and row `h` of the table. -/
def normOut (x0 : Vec F S1024x256 .f32) (a : Vec F S4x256 .f32) : Vec F S1024x1024 .bf16 :=
  View.canon [⟨rO3, k0_pay1 (View.ld x0 rX) (View.ld a rA3)⟩, ⟨rO2, k0_pay4 (View.ld x0 rX) (View.ld a rA2)⟩,
    ⟨rO1, k0_pay3 (View.ld x0 rX) (View.ld a rA1)⟩, ⟨rO0, k0_pay2 (View.ld x0 rX) (View.ld a rA0)⟩]

/-- The four bands tile the buffer, so they cover it. -/
theorem normCover (p3 p2 p1 p0 : Vec F S1024x256 .bf16) (y : S1024x1024.Idx) :
    ∃ pc ∈ ([⟨rO3, p3⟩, ⟨rO2, p2⟩, ⟨rO1, p1⟩, ⟨rO0, p0⟩] : List (View.Piece (Elt F) S1024x1024 .bf16)), y ∈ pc.1.set :=
  View.cover_of_tiled [⟨rO3, p3⟩, ⟨rO2, p2⟩, ⟨rO1, p1⟩, ⟨rO0, p0⟩] S1024x256.size (by rfl) y

/-! ## The body's triple -/

set_option maxHeartbeats 4000000 in
/-- The body on whole staging memrefs, the inputs' at read contents `x0`, `a` and the output's at anything, runs to the
    continuation holding the inputs' as they were and the output's at `normOut x0 a`. -/
theorem sound_kernel (c : Dev nD) (E : Set ℕ) (i : grid0.Coords) (arg1 : Memref sig .tc .vmem S1024x256 .f32) (harg1 : arg1.IsWhole)
    (arg2 : Memref sig .tc .vmem S4x256 .f32) (harg2 : arg2.IsWhole) (arg3 : Memref sig .tc .vmem S1024x1024 .bf16) (harg3 : arg3.IsWhole)
    (x0 : Vec F S1024x256 .f32) (a : Vec F S4x256 .f32) (K : PUnit → sProp 𝕄) :
    iprop(owns (c : Thread nD τ) arg1 fullShare x0 ∗ owns (c : Thread nD τ) arg2 fullShare a ∗ (∃ d, owns (c : Thread nD τ) arg3 fullShare d)
        ∗ (iprop(owns (c : Thread nD τ) arg1 fullShare x0 ∗ owns (c : Thread nD τ) arg2 fullShare a ∗ owns (c : Thread nD τ) arg3 fullShare (normOut x0 a)) -∗ K ⟨⟩))
      ⊢ wp frame (wpE (defs₀ (F := F)) Variants.none c none) E (cc0__norm_kernel i arg1 harg1 arg2 harg2 arg3 harg3) K := by
  simp only [cc0__norm_kernel_eq_skeleton]; unfold cc0__norm_kernel_skel
  simp only [k0_part1_eq_skeleton]
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (normCover _ _ _ _)

/-! ## The pipeline's proof data -/

/-- The proof data of the region on core `c`: the arrays as the region finds them; after the body at point `t` each
    input's buffer at its block and the output's at `normOut` of the two input blocks; the class invariant (the scoped
    rest and the generator register, untouched); nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => normOut (blk V c 0 t) (blk V c 1 t)
  Φ _ := Pipeline.ΦA spec0 c
  q _ := fullShare
  owed _ := 0

theorem A_eq (c : Dev nD) (w : Fin cfg0.W) : (dat V c).A w = V c (Pipeline.arrRef spec0 w) := by
  dsimp only [dat]

theorem after0 (c : Dev nD) (t : Fin cfg0.N) : (dat V c).after 0 t = blk V c 0 t := by dsimp only [dat]
theorem after1 (c : Dev nD) (t : Fin cfg0.N) : (dat V c).after 1 t = blk V c 1 t := by dsimp only [dat]
theorem after2 (c : Dev nD) (t : Fin cfg0.N) : (dat V c).after 2 t = normOut (blk V c 0 t) (blk V c 1 t) := by dsimp only [dat]

/-- The rows window's current buffer holds its block at every point (it is fetched at every point). -/
theorem before0 (c : Dev nD) (t : Fin cfg0.N) (d) : (dat V c).before 0 t d = blk V c 0 t :=
  ((dat V c).before_in_eq_fetched 0 rfl (fun _ => rfl) (fun _ _ _ => rfl)
      (fun t => by rw [after0]; unfold Dat.blockOf blk; rw [A_eq]; try rfl) t d).trans
    (by unfold Dat.fetched Dat.blockOf blk; rw [A_eq]; try rfl)

/-- The table window's buffer holds the whole table at every point, though it is fetched at the first only: its block
    index never moves. -/
theorem before1 (c : Dev nD) (t : Fin cfg0.N) (d) : (dat V c).before 1 t d = blk V c 1 t :=
  ((dat V c).before_in_eq_fetched 1 rfl (fun _ => rfl) (fun _ _ _ => rfl)
      (fun t => by rw [after1]; unfold Dat.blockOf blk; rw [A_eq]; try rfl) t d).trans
    (by unfold Dat.fetched Dat.blockOf blk; rw [A_eq]; try rfl)

/-! ## The body obligation, at a generic point -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1]
  rw [show (dat V c).Φ t.succ = (dat V c).Φ t.castSucc from rfl,
    show (dat V c).owesAt () t.succ = (dat V c).owesAt () t.castSucc from rfl,
    after0, after1, after2]
  iintro ⟨HΦ, Ho, ⟨%d0, H0⟩, ⟨%d1, H1⟩, ⟨%d2, H2⟩⟩
  iapply (sound_kernel c Set.univ _ _ _ _ _ _ _ (blk V c 0 t) (blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Norm

end
-- ==== Proof.GramBody.lean ====
/-
  Region 1 of the kernel program: the Gram product.  Grid point `(i, j)` takes row block `i` and row block `j` of
  the feature matrix (each 1024 × 1024, both windows on the one array) and writes block `(i, j)` of the result:
  the product of the first with the transpose of the second, times one quarter.  Stated for any float instance:
  what the body leaves in its output buffer as a function of the two input blocks, the body's triple, the
  region's proof data — the feature array held half by each of the two windows that read it — and its body
  obligation.
-/
import proofs.«102200_j24223615549685_1_alg».proof.Proof.Gen.KernelIdeal.Launch
import proofs.«102200_j24223615549685_1_alg».proof.Proof.Gen.KernelIdeal.Skeleton
import proofs.«102200_j24223615549685_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gram

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses -/

abbrev rW : Rect S1024x1024 := Rect.unit (s := S1024x1024) ![0, 0] S1024x1024.size inb_S1024x1024_S1024x1024_0_0

/-! ## What the body leaves in the output window's buffer -/

/-- The output buffer after the body, from the two input blocks: its one whole-block store. -/
def gramOut (p q : Vec F S1024x1024 .bf16) : Vec F S1024x1024 .f32 :=
  View.canon [⟨rW, k1_pay1 (View.ld p rW) (View.ld q rW)⟩]

theorem gramCover (p0 : Vec F S1024x1024 .f32) (y : S1024x1024.Idx) :
    ∃ pc ∈ ([⟨rW, p0⟩] : List (View.Piece (Elt F) S1024x1024 .f32)), y ∈ pc.1.set :=
  View.cover_of_tiled [⟨rW, p0⟩] S1024x1024.size (by rfl) y

/-! ## The body's triple -/

set_option maxHeartbeats 4000000 in
/-- The body on whole staging memrefs, the inputs' at read contents `p`, `q` and the output's at anything, runs to the
    continuation holding the inputs' as they were and the output's at `gramOut p q`. -/
theorem sound_kernel (c : Dev nD) (E : Set ℕ) (i : grid1.Coords) (arg2 : Memref sig .tc .vmem S1024x1024 .bf16) (harg2 : arg2.IsWhole)
    (arg3 : Memref sig .tc .vmem S1024x1024 .bf16) (harg3 : arg3.IsWhole) (arg4 : Memref sig .tc .vmem S1024x1024 .f32) (harg4 : arg4.IsWhole)
    (p q : Vec F S1024x1024 .bf16) (K : PUnit → sProp 𝕄) :
    iprop(owns (c : Thread nD τ) arg2 fullShare p ∗ owns (c : Thread nD τ) arg3 fullShare q ∗ (∃ d, owns (c : Thread nD τ) arg4 fullShare d)
        ∗ (iprop(owns (c : Thread nD τ) arg2 fullShare p ∗ owns (c : Thread nD τ) arg3 fullShare q ∗ owns (c : Thread nD τ) arg4 fullShare (gramOut p q)) -∗ K ⟨⟩))
      ⊢ wp frame (wpE (defs₀ (F := F)) Variants.none c none) E (cc1__mm_kernel i arg2 harg2 arg3 harg3 arg4 harg4) K := by
  simp only [cc1__mm_kernel_eq_skeleton]; unfold cc1__mm_kernel_skel
  unfold owns
  iintro ⟨⟨%f2, %hf2, H2⟩, ⟨%f3, %hf3, H3⟩, ⟨%d4, %f4, -, H4⟩, Hk⟩
  subst hf2; subst hf3
  sl_exec
  sl_step
  iapply Hk
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (gramCover _)

/-! ## The pipeline's proof data -/

/-- The proof data of the region on core `c`: the arrays as the region finds them; after the body at point `t` each
    input's buffer at its block and the output's at `gramOut` of the two input blocks; the class invariant; nothing owed;
    the feature array, which both input windows read, held half by each. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => gramOut (blk V c 0 t) (blk V c 1 t)
  Φ _ := Pipeline.ΦA spec1 c
  q w := match w with
    | ⟨0, _⟩ => fullShare.left
    | ⟨1, _⟩ => fullShare.right
    | ⟨2, _⟩ => fullShare
  owed _ := 0

theorem A_eq (c : Dev nD) (w : Fin cfg1.W) : (dat V c).A w = V c (Pipeline.arrRef spec1 w) := by
  dsimp only [dat]

theorem after0 (c : Dev nD) (t : Fin cfg1.N) : (dat V c).after 0 t = blk V c 0 t := by dsimp only [dat]
theorem after1 (c : Dev nD) (t : Fin cfg1.N) : (dat V c).after 1 t = blk V c 1 t := by dsimp only [dat]
theorem after2 (c : Dev nD) (t : Fin cfg1.N) : (dat V c).after 2 t = gramOut (blk V c 0 t) (blk V c 1 t) := by dsimp only [dat]

/-- The left window's buffer holds row block `i` at every point, though it is fetched only when `i` changes. -/
theorem before0 (c : Dev nD) (t : Fin cfg1.N) (d) : (dat V c).before 0 t d = blk V c 0 t :=
  ((dat V c).before_in_eq_fetched 0 rfl (fun _ => rfl) (fun _ _ _ => rfl)
      (fun t => by rw [after0]; unfold Dat.blockOf blk; rw [A_eq]; try rfl) t d).trans
    (by unfold Dat.fetched Dat.blockOf blk; rw [A_eq]; try rfl)

/-- The right window's buffer holds row block `j` at every point. -/
theorem before1 (c : Dev nD) (t : Fin cfg1.N) (d) : (dat V c).before 1 t d = blk V c 1 t :=
  ((dat V c).before_in_eq_fetched 1 rfl (fun _ => rfl) (fun _ _ _ => rfl)
      (fun t => by rw [after1]; unfold Dat.blockOf blk; rw [A_eq]; try rfl) t d).trans
    (by unfold Dat.fetched Dat.blockOf blk; rw [A_eq]; try rfl)

/-! ## The body obligation, at a generic point -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1]
  rw [show (dat V c).Φ t.succ = (dat V c).Φ t.castSucc from rfl,
    show (dat V c).owesAt () t.succ = (dat V c).owesAt () t.castSucc from rfl,
    after0, after1, after2]
  iintro ⟨HΦ, Ho, ⟨%d0, H0⟩, ⟨%d1, H1⟩, ⟨%d2, H2⟩⟩
  iapply (sound_kernel c Set.univ _ _ _ _ _ _ _ (blk V c 0 t) (blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W1, bigSep_W1]
  exact sound_body V c t

end Cert.KernelIdeal.Gram

end
-- ==== Proof.GramShare.lean ====
/-
  The feature array of region 1 is read through two windows at once.  The core holds it whole when the region is
  entered; the region's proof data hold it half by each window.  Splitting the whole into the two halves at entry,
  and joining the halves again at exit, turns the core's unscoped buffers into the region's arrays and back.
-/
import proofs.«102200_j24223615549685_1_alg».proof.Proof.Gen.KernelIdeal.Launch
import Idealize.ShloMosaic.Lib.Pipeline.FrameBody
import Idealize.ShloMosaic.Lib.Pipeline.RegionsLoop
import Idealize.ShloMosaic.Lib.Pipeline.FrameSuffix
import Idealize.ShloMosaic.Rules.PointsTo

set_option maxRecDepth 16384

noncomputable section

namespace Cert.KernelIdeal.Gram

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

local notation "𝕄" => MT nD τ sig Unit (Elt F) ℕ (UR sig nD τ) ℕ

/-! ## The two buffers behind the three windows -/

/-- Windows 0 and 1 lie on the feature array and window 2 on the result: two buffers in all. -/
theorem image_arrRef : Finset.univ.image (Pipeline.arrRef spec1) = {main_v0, main_v1} := by decide

/-- The buffers behind the windows, held whole: the feature array and the result. -/
theorem arrBufs_eq (c : Dev nD) (Vc : (b : Ref sig .tc) → Buf (Elt F) ((c : Thread nD τ).loc b)) :
    (Pipeline.arrBufs (Ix := Unit) (Name := ℕ) (U := UR sig nD τ) (Lvl := ℕ) spec1 c Vc : sProp 𝕄)
      = iprop((((c : Thread nD τ).loc main_v0) ↦{fullShare} Vc main_v0) ∗ (((c : Thread nD τ).loc main_v1) ↦{fullShare} Vc main_v1)) := by
  unfold Pipeline.arrBufs
  rw [image_arrRef, bigSep_insert (by decide), bigSep_singleton]
  rfl

/-! ## The shares the region's proof data hold the windows' arrays at -/

section Shares

variable (c : Dev nD) (dat : Dat τ (Elt F) Unit ℕ (UR sig nD τ) ℕ cfg1 c)

/-- Window 0 reads: it holds its own share. -/
theorem share0 (hq0 : dat.q 0 = fullShare.left) : dat.share 0 = fullShare.left := by
  unfold Dat.share; rw [if_neg (by decide)]; exact hq0

/-- Window 1 reads: it holds its own share. -/
theorem share1 (hq1 : dat.q 1 = fullShare.right) : dat.share 1 = fullShare.right := by
  unfold Dat.share; rw [if_neg (by decide)]; exact hq1

/-- Window 2 writes: it holds the result whole. -/
theorem share2 : dat.share 2 = fullShare := by
  unfold Dat.share; rw [if_pos (by decide)]

/-- The region's arrays window by window: the feature array's left half, its right half, the result whole. -/
theorem arrays_eq (hq0 : dat.q 0 = fullShare.left) (hq1 : dat.q 1 = fullShare.right)
    (G : (w : Fin cfg1.W) → Buf (Elt F) ((cfg1.win w).arr.view.loc (c : Thread nD τ))) :
    dat.arrays G = iprop(((cfg1.win 0).arr.view.loc (c : Thread nD τ) ↦{fullShare.left} G 0)
      ∗ ((cfg1.win 1).arr.view.loc (c : Thread nD τ) ↦{fullShare.right} G 1)
      ∗ ((cfg1.win 2).arr.view.loc (c : Thread nD τ) ↦{fullShare} G 2)) := by
  unfold Dat.arrays
  -- windows 0 and 1 lie on one array, so one equation gives both their element sets
  rw [bigSep_W1, (arr_whole1 0).set_eq_univ, (arr_whole1 2).set_eq_univ,
    share0 c dat hq0, share1 c dat hq1, share2 c dat]

end Shares

/-! ## Entry and exit -/

theorem arrays_of_bufs (c : Dev nD) (dat : Dat τ (Elt F) Unit ℕ (UR sig nD τ) ℕ cfg1 c)
    (hq0 : dat.q 0 = fullShare.left) (hq1 : dat.q 1 = fullShare.right)
    (Vc : (b : Ref sig .tc) → Buf (Elt F) ((c : Thread nD τ).loc b))
    (G : (w : Fin cfg1.W) → Buf (Elt F) ((cfg1.win w).arr.view.loc (c : Thread nD τ)))
    (hG : ∀ w, G w = Vc (Pipeline.arrRef spec1 w)) :
    (Pipeline.arrBufs (Ix := Unit) (Name := ℕ) (U := UR sig nD τ) (Lvl := ℕ) spec1 c Vc : sProp 𝕄) ⊢ dat.arrays G := by
  rw [arrBufs_eq c Vc, arrays_eq c dat hq0 hq1 G, hG 0, hG 1, hG 2]
  iintro ⟨H0, H2⟩
  -- the feature array whole is its left half and its right half, at the same contents
  ihave H0 := (pointsTo_share (PosShare.mem_left_op_right fullShare)).1 $$ H0
  icases H0 with ⟨Ha, Hb⟩
  isplitl [Ha]; · iexact Ha
  isplitl [Hb]; · iexact Hb
  iexact H2

theorem bufs_of_arrays (c : Dev nD) (dat : Dat τ (Elt F) Unit ℕ (UR sig nD τ) ℕ cfg1 c)
    (hq0 : dat.q 0 = fullShare.left) (hq1 : dat.q 1 = fullShare.right)
    (Vc : (b : Ref sig .tc) → Buf (Elt F) ((c : Thread nD τ).loc b))
    (G : (w : Fin cfg1.W) → Buf (Elt F) ((cfg1.win w).arr.view.loc (c : Thread nD τ)))
    (hG : ∀ w, G w = Vc (Pipeline.arrRef spec1 w)) :
    dat.arrays G ⊢ (Pipeline.arrBufs (Ix := Unit) (Name := ℕ) (U := UR sig nD τ) (Lvl := ℕ) spec1 c Vc : sProp 𝕄) := by
  rw [arrBufs_eq c Vc, arrays_eq c dat hq0 hq1 G, hG 0, hG 1, hG 2]
  iintro ⟨Ha, Hb, H2⟩
  -- the two halves of the feature array, at the same contents, are the array whole
  ihave H0 := (pointsTo_share (PosShare.mem_left_op_right fullShare)).2 $$ [Ha Hb]
  · isplitl [Ha]; · iexact Ha
    iexact Hb
  isplitl [H0]; · iexact H0
  iexact H2

theorem arrays_of_unscopedBufs (c : Dev nD) (dat : Dat τ (Elt F) Unit ℕ (UR sig nD τ) ℕ cfg1 c)
    (hq0 : dat.q 0 = fullShare.left) (hq1 : dat.q 1 = fullShare.right)
    (Vc : (b : Ref sig .tc) → Buf (Elt F) ((c : Thread nD τ).loc b))
    (G : (w : Fin cfg1.W) → Buf (Elt F) ((cfg1.win w).arr.view.loc (c : Thread nD τ)))
    (hG : ∀ w, G w = Vc (Pipeline.arrRef spec1 w)) :
    (unscopedBufs c Vc : sProp 𝕄) ⊢ iprop(dat.arrays G ∗ Pipeline.unscopedRest (Ix := Unit) (Name := ℕ) (U := UR sig nD τ) (Lvl := ℕ) spec1 c Vc) := by
  rw [Pipeline.unscopedBufs_split₀ cfgs 1 winFacts₀1.arr_unscoped c Vc]
  exact sep_mono (arrays_of_bufs c dat hq0 hq1 Vc G hG) .rfl

theorem unscopedBufs_of_arrays (c : Dev nD) (dat : Dat τ (Elt F) Unit ℕ (UR sig nD τ) ℕ cfg1 c)
    (hq0 : dat.q 0 = fullShare.left) (hq1 : dat.q 1 = fullShare.right)
    (Vc Vc' : (b : Ref sig .tc) → Buf (Elt F) ((c : Thread nD τ).loc b))
    (G : (w : Fin cfg1.W) → Buf (Elt F) ((cfg1.win w).arr.view.loc (c : Thread nD τ)))
    (hG : ∀ w, G w = Vc' (Pipeline.arrRef spec1 w))
    (hrest : ∀ b, b ∉ Finset.univ.image (Pipeline.arrRef spec1) → Vc' b = Vc b) :
    iprop(dat.arrays G ∗ Pipeline.unscopedRest (Ix := Unit) (Name := ℕ) (U := UR sig nD τ) (Lvl := ℕ) spec1 c Vc) ⊢ (unscopedBufs c Vc' : sProp 𝕄) := by
  rw [Pipeline.unscopedBufs_split₀ cfgs 1 winFacts₀1.arr_unscoped c Vc']
  refine sep_mono (bufs_of_arrays c dat hq0 hq1 Vc' G hG) (Entails.of_eq ?_)
  -- off the windows' arrays the two valuations agree
  unfold Pipeline.unscopedRest
  exact bigSep_congr fun b hb => by rw [hrest b (Finset.mem_sdiff.mp hb).2]

end Cert.KernelIdeal.Gram

end
-- ==== Proof.Regs.lean ====
/-
  The whole program: two regions in a row.  Region 0 turns the launch contents of `x` and of the table into the
  feature array; region 1 turns the feature array into the result.  Between the items core `c` holds every
  unscoped buffer whole: at the launch contents, then with the feature array at what region 0's write-backs
  leave, then with the result at what region 1's leave.  Each region's record splits its arrays out of that
  holding on entry and puts them back on exit; the feature array, read by two windows of region 1, goes in as
  two halves and comes back joined.  The run: every weakly fair execution ends, the result array holds region 1's
  final contents, and both arguments are as launched — for any float instance.
-/
import proofs.«102200_j24223615549685_1_alg».proof.Proof.NormBody
import proofs.«102200_j24223615549685_1_alg».proof.Proof.GramBody
import proofs.«102200_j24223615549685_1_alg».proof.Proof.GramShare

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items -/

/-- Core `c`'s buffers at launch. -/
abbrev W0 : Dev nD → Valuation τ sig (Elt F) := fun c b => m (c, b)
/-- The same read at the TensorCore's references: what region 0 is entered at. -/
abbrev E0 : (c : Dev nD) → (b : Ref sig .tc) → Buf (Elt F) ((c : Thread nD τ).loc b) := fun c b => W0 m c b
/-- After region 0: the feature array at what its eight write-backs leave, every other buffer as launched. -/
def W1 (c : Dev nD) : Valuation τ sig (Elt F) :=
  Function.update (W0 m c) (Proc.devRef .tc main_v0) ((Norm.dat (E0 m) c).arrAt 2 cfg0.N)
abbrev E1 : (c : Dev nD) → (b : Ref sig .tc) → Buf (Elt F) ((c : Thread nD τ).loc b) := fun c b => W1 m c b
/-- After region 1: the result array at what its sixty-four write-backs leave, every other buffer as before. -/
def W2 (c : Dev nD) : Valuation τ sig (Elt F) :=
  Function.update (W1 m c) (Proc.devRef .tc main_v1) ((Gram.dat (E1 m) c).arrAt 2 cfg1.N)
abbrev E2 : (c : Dev nD) → (b : Ref sig .tc) → Buf (Elt F) ((c : Thread nD τ).loc b) := fun c b => W2 m c b

theorem W1_v0 (c : Dev nD) : W1 m c (Proc.devRef .tc main_v0) = (Norm.dat (E0 m) c).arrAt 2 cfg0.N := by
  unfold W1; exact Function.update_self _ _ _
theorem W1_of_ne (c : Dev nD) (b : Ref sig .tc) (h : b ≠ main_v0) : W1 m c (Proc.devRef .tc b) = W0 m c (Proc.devRef .tc b) := by
  unfold W1; exact Function.update_of_ne (StableHlo.devRef_ne_of_ne h) _ _
theorem W2_v1 (c : Dev nD) : W2 m c (Proc.devRef .tc main_v1) = (Gram.dat (E1 m) c).arrAt 2 cfg1.N := by
  unfold W2; exact Function.update_self _ _ _
theorem W2_of_ne (c : Dev nD) (b : Ref sig .tc) (h : b ≠ main_v1) : W2 m c (Proc.devRef .tc b) = W1 m c (Proc.devRef .tc b) := by
  unfold W2; exact Function.update_of_ne (StableHlo.devRef_ne_of_ne h) _ _

/-- Neither region writes an argument. -/
theorem W2_main_arg0 (c : Dev nD) : W2 m c (Proc.devRef .tc main_arg0) = m ((c : Thread nD τ).loc main_arg0) :=
  (W2_of_ne m c main_arg0 (by decide)).trans ((W1_of_ne m c main_arg0 (by decide)).trans rfl)
theorem W2_main_arg1 (c : Dev nD) : W2 m c (Proc.devRef .tc main_arg1) = m ((c : Thread nD τ).loc main_arg1) :=
  (W2_of_ne m c main_arg1 (by decide)).trans ((W1_of_ne m c main_arg1 (by decide)).trans rfl)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => Norm.dat (E0 m) c
  | ⟨1, _⟩ => fun c => Gram.dat (E1 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev Tₙ (c : Dev nD) : sProp 𝕄 := iprop(StableHlo.held (c : Thread nD τ) (Pipeline.ucRefs τ sig) (W2 m c) ∗ ∃ r, prngReg c r)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## What each region's arrays hold at its exit, against the next valuation -/

theorem hF0 (c : Dev nD) (w : Fin cfg0.W) : (Norm.dat (E0 m) c).arrAt w cfg0.N = E1 m c (Pipeline.arrRef spec0 w) := by
  match w with
  | ⟨0, _⟩ => exact (((Norm.dat (E0 m) c).arrAt_in 0 rfl _).trans (Norm.A_eq (E0 m) c 0)).trans (W1_of_ne m c main_arg0 (by decide)).symm
  | ⟨1, _⟩ => exact (((Norm.dat (E0 m) c).arrAt_in 1 rfl _).trans (Norm.A_eq (E0 m) c 1)).trans (W1_of_ne m c main_arg1 (by decide)).symm
  | ⟨2, _⟩ => exact (W1_v0 m c).symm
theorem hrest0 (c : Dev nD) : ∀ b, b ∉ Finset.univ.image (Pipeline.arrRef spec0) → E1 m c b = E0 m c b :=
  fun b hb => W1_of_ne m c b fun e => hb (Finset.mem_image.mpr ⟨2, Finset.mem_univ _, e.symm⟩)

theorem hF1 (c : Dev nD) (w : Fin cfg1.W) : (Gram.dat (E1 m) c).arrAt w cfg1.N = E2 m c (Pipeline.arrRef spec1 w) := by
  match w with
  | ⟨0, _⟩ => exact (((Gram.dat (E1 m) c).arrAt_in 0 rfl _).trans (Gram.A_eq (E1 m) c 0)).trans (W2_of_ne m c main_v0 (by decide)).symm
  | ⟨1, _⟩ => exact (((Gram.dat (E1 m) c).arrAt_in 1 rfl _).trans (Gram.A_eq (E1 m) c 1)).trans (W2_of_ne m c main_v0 (by decide)).symm
  | ⟨2, _⟩ => exact (W2_v1 m c).symm
theorem hrest1 (c : Dev nD) : ∀ b, b ∉ Finset.univ.image (Pipeline.arrRef spec1) → E2 m c b = E1 m c b :=
  fun b hb => W2_of_ne m c b fun e => hb (Finset.mem_image.mpr ⟨2, Finset.mem_univ _, e.symm⟩)

/-! ## The regions as segments -/

set_option backward.isDefEq.respectTransparency.types false in
/-- REGION 0 over the thread state: entered from every unscoped buffer at the launch contents, left with the
    feature array at its final contents.  Its arrays are distinct buffers, each held whole. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Norm.body_obligation (E0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered with the feature array at region 0's final contents, left with the
    result array at its own.  The feature array goes in as two halves, one per window that reads it, and comes
    back whole. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Gram.body_obligation (E1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Gram.arrays_of_unscopedBufs c (pdats m 1 c) rfl rfl (E1 m c) ((pdats m 1 c).arrAt · 0) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Gram.unscopedBufs_of_arrays c (pdats m 1 c) rfl rfl (E1 m c) (E2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m), .region (reg1 m) ]

theorem main_run (c : Dev nD) : main (F := F) c = Pipeline.Seg.run (segs m) :=
  main_segs adm (pdats m) () 𝒱₀ L lv (reg0 m) (reg1 m) c

set_option backward.isDefEq.respectTransparency.types false in
/-- THE RUN, at any float instance: from any memory with zero counters every weakly fair execution of @main on
    the TensorCores terminates, nothing faulting; the result array ends at region 1's final contents and the two
    arguments as launched. -/
theorem run : θ_run defs (onTc (τ := τ) (main (F := F))) ⟨m, fun _ => 0, ρ⟩ (fun r => ∀ c : Dev nD,
      r.2.mem ((c.tc : Thread nD τ).loc main_v1) = (Gram.dat (E1 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c =>
      ⟨(h c _ (mem_uc main_v1 (by decide))).trans (W2_v1 m c),
       (h c _ (mem_uc main_arg0 (by decide))).trans (W2_main_arg0 m c),
       (h c _ (mem_uc main_arg1 (by decide))).trans (W2_main_arg1 m c)⟩)

end Cert.KernelIdeal.Whole

end
-- ==== Proof.Spec.lean ====
/-
  The function both programs compute, over the extended reals, index by index.

  `x` is 8192 × 256, `a` is 4 × 256.  For head `h` and row `n` the scaled row is `a_h ⊙ x_n`; it is normalised by
  the reciprocal square root of `max (‖a_h ⊙ x_n‖², ε)`.  The four normalised rows of `n` laid side by side are row `n`
  of the feature matrix `Y` (8192 × 1024: column `256·h + d` is head `h`, feature `d`), and the result is the Gram matrix
  `Y Yᵀ` scaled by one quarter.
-/
import Idealize.ShloMosaic.PureOps.Ideal
import Idealize.ShloMosaic.Lib.ValueIdx

noncomputable section

open scoped BigOperators

namespace Cert.Attentive

open Idealize.ShloMosaic Idealize.ShloMosaic.ValueIdx

/-- The shapes of the two arguments, of the feature matrix and of the result. -/
abbrev SX : Shape := ⟨2, ![8192, 256]⟩
abbrev SA : Shape := ⟨2, ![4, 256]⟩
abbrev SY : Shape := ⟨2, ![8192, 1024]⟩
abbrev SO : Shape := ⟨2, ![8192, 8192]⟩

/-- The clamp under the square root: the single-precision word nearest 1e-12, read exactly. -/
def eps : EReal := Ideal.ofBits .f32 0x2B8CBCCC#32

/-- One quarter, as the single-precision word 0.25 (exact). -/
def quarter : EReal := Ideal.ofBits .f32 0x3E800000#32

/-- Feature `d` of row `n` scaled by head `h`: `a (h, d) · x (n, d)`. -/
def scaled (x : SX.Idx → EReal) (a : SA.Idx → EReal) (h : Fin 4) (n : Fin 8192) (d : Fin 256) : EReal :=
  a (ix2 h d) * x (ix2 n d)

/-- The squared length of the scaled row. -/
def sqnorm (x : SX.Idx → EReal) (a : SA.Idx → EReal) (h : Fin 4) (n : Fin 8192) : EReal :=
  ∑ d : Fin 256, scaled x a h n d * scaled x a h n d

/-- The normalised scaled row at feature `d`. -/
def unit (x : SX.Idx → EReal) (a : SA.Idx → EReal) (h : Fin 4) (n : Fin 8192) (d : Fin 256) : EReal :=
  scaled x a h n d * Ideal.rsqrt (max (sqnorm x a h n) eps)

/-- The feature matrix: entry `(n, 256·h + d)` is head `h`'s normalised row `n` at feature `d`. -/
def feat (x : SX.Idx → EReal) (a : SA.Idx → EReal) : SY.Idx → EReal := fun j =>
  unit x a ⟨(j 1).val / 256, by have h : (j 1).val < 1024 := (j 1).isLt; show (j 1).val / 256 < 4; omega⟩ (j 0)
    ⟨(j 1).val % 256, Nat.mod_lt _ (by decide)⟩

/-- The Gram matrix of any 8192 × 1024 matrix, scaled by one quarter. -/
def gramOf (y : SY.Idx → EReal) : SO.Idx → EReal := fun j =>
  (∑ k : Fin 1024, y (ix2 (j 0) k) * y (ix2 (j 1) k)) * quarter

/-- The result: the scaled Gram matrix of the feature matrix. -/
def gram (x : SX.Idx → EReal) (a : SA.Idx → EReal) : SO.Idx → EReal := gramOf (feat x a)

end Cert.Attentive

end
-- ==== Proof.NormPay.lean ====
/-
  The normaliser's four band payloads read at an index, over the extended reals: from a block of 1024 rows `v` and
  one row `a1` of the table, entry `(r, d)` of the band is `a1 d · v (r, d)` times the reciprocal square root of
  `max (∑ e, (a1 e · v (r, e))², ε)`.
-/
import proofs.«102200_j24223615549685_1_alg».proof.Proof.Gen.KernelIdeal.Skeleton
import proofs.«102200_j24223615549685_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.NormPay

open Cert.KernelIdeal Cert.KernelIdeal.Gen
open Idealize.ShloMosaic Idealize.ShloMosaic.ValueIdx

/-- One entry of a band: the scaled feature times the reciprocal square root of the clamped squared row length. -/
def rowUnit (v : Vec Ideal S1024x256 .f32) (a1 : Vec Ideal S1x256 .f32) (r : Fin 1024) (d : Fin 256) : EReal :=
  (a1 (ix2 (0 : Fin 1) d) * v (ix2 r d))
    * Ideal.rsqrt (max (∑ e : Fin 256, (a1 (ix2 (0 : Fin 1) e) * v (ix2 r e)) * (a1 (ix2 (0 : Fin 1) e) * v (ix2 r e))) Cert.Attentive.eps)

/-! ## The two column forms of a kept reduced axis -/

/-- A vector `[a]` cast to the column `[a, 1]` reads, at `(i, u)`, the operand at `i`: both have row-major position `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's row `p` at its one column. -/
theorem broadcastTo_a1_ab_apply {α : Type} {a b : ℕ} (x : (⟨2, ![a, 1]⟩ : Shape).Idx → α)
    (h : (⟨2, ![a, 1]⟩ : Shape).Broadcasts ⟨2, ![a, b]⟩) (p : Fin a) (c : Fin b) :
    broadcastTo ⟨2, ![a, b]⟩ x h (ix2 p c) = x (ix2 p (0 : Fin 1)) := by
  refine broadcastTo_apply x h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-! ## The lane sum -/

/-- The sum along the lanes of a 1024 × 256 block into a zero accumulator, read at row `r`: the sum of that row's 256
    entries. The reduced index with lane `e` put back is `(r, e)`, coordinate by coordinate. -/
theorem rowSum_apply (w : FVec Ideal S1024x256 .f32) (h : S1024x256.Reduces [1] S1024) (hφ : FKind.Formats .f32)
    (hacc : (0x00000000#32 : BitVec 32) = 0x00000000#32) (r : Fin 1024) :
    multiReduction (F := Ideal) .add [1] S1024 w 0x00000000#32 h hφ hacc (ix1 r) = ∑ e : Fin 256, w (ix2 r e) := by
  refine (Ideal.multiReduction_add_single w 0x00000000#32 h hφ hacc (ix1 r)).trans ?_
  refine Finset.sum_congr rfl fun e _ => congrArg w (funext fun ax => Fin.ext ?_)
  match ax with
  | ⟨0, _⟩ => rfl
  | ⟨1, _⟩ => rfl

/-! ## The normalising tail on any block -/

/-- A block `w` times the reciprocal square root of its clamped squared row lengths, kept as a column and spread back
    over the lanes: entry `(r, d)` is `w (r, d)` times `rsqrt (max (∑ e, w (r, e)²) ε)`. The products, the maximum, the
    reciprocal square root and the change of format act entry by entry; the column cast, the lane sum and the two
    broadcasts are read by the lemmas above. -/
theorem normalise_apply (w : FVec Ideal S1024x256 .f32) (r : Fin 1024) (d : Fin 256) :
    (truncf .bf16 (mulf w (broadcastTo S1024x256 (rsqrt (maximumf
        (shapeCast S1024x1 (multiReduction (F := Ideal) .add [1] S1024 (mulf w w) 0x00000000#32 reduces_S1024x256_S1024 (.inl rfl) rfl)
          shapeCasts_S1024_S1024x1)
        (broadcast S1024x1 (Scalar.ofBits (F := Ideal) .f32 0x2B8CBCCC#32)))) broadcasts_S1024x1_S1024x256))
      bitsLt_bf16_f32 : FVec Ideal S1024x256 .bf16) (ix2 r d)
      = w (ix2 r d) * Ideal.rsqrt (max (∑ e : Fin 256, w (ix2 r e) * w (ix2 r e)) Cert.Attentive.eps) := by
  refine congrArg (w (ix2 r d) * ·) ?_
  refine (broadcastTo_a1_ab_apply _ broadcasts_S1024x1_S1024x256 r d).trans ?_
  refine congrArg (fun t => Ideal.rsqrt (max t Cert.Attentive.eps)) ?_
  refine (shapeCast_a_a1_apply _ shapeCasts_S1024_S1024x1 r 0).trans ?_
  exact rowSum_apply (mulf w w) _ _ _ r

/-! ## The four bands: each is the normalising tail on the block `a1 · v` -/

theorem pay1_apply (v : Vec Ideal S1024x256 .f32) (a1 : Vec Ideal S1x256 .f32) (r : Fin 1024) (d : Fin 256) :
    k0_pay1 (F := Ideal) v a1 (ix2 r d) = rowUnit v a1 r d := by
  unfold k0_pay1 rowUnit
  refine (normalise_apply (mulf (broadcastTo S1024x256 a1 broadcasts_S1x256_S1024x256) v) r d).trans ?_
  simp only [mulf_apply, broadcastTo_1b_ab_apply]

theorem pay2_apply (v : Vec Ideal S1024x256 .f32) (a1 : Vec Ideal S1x256 .f32) (r : Fin 1024) (d : Fin 256) :
    k0_pay2 (F := Ideal) v a1 (ix2 r d) = rowUnit v a1 r d := by
  unfold k0_pay2 rowUnit
  refine (normalise_apply (mulf (broadcastTo S1024x256 a1 broadcasts_S1x256_S1024x256) v) r d).trans ?_
  simp only [mulf_apply, broadcastTo_1b_ab_apply]

theorem pay3_apply (v : Vec Ideal S1024x256 .f32) (a1 : Vec Ideal S1x256 .f32) (r : Fin 1024) (d : Fin 256) :
    k0_pay3 (F := Ideal) v a1 (ix2 r d) = rowUnit v a1 r d := by
  unfold k0_pay3 rowUnit
  refine (normalise_apply (mulf (broadcastTo S1024x256 a1 broadcasts_S1x256_S1024x256) v) r d).trans ?_
  simp only [mulf_apply, broadcastTo_1b_ab_apply]

theorem pay4_apply (v : Vec Ideal S1024x256 .f32) (a1 : Vec Ideal S1x256 .f32) (r : Fin 1024) (d : Fin 256) :
    k0_pay4 (F := Ideal) v a1 (ix2 r d) = rowUnit v a1 r d := by
  unfold k0_pay4 rowUnit
  refine (normalise_apply (mulf (broadcastTo S1024x256 a1 broadcasts_S1x256_S1024x256) v) r d).trans ?_
  simp only [mulf_apply, broadcastTo_1b_ab_apply]

end Cert.KernelIdeal.NormPay

end
-- ==== Proof.NormValue.lean ====
/-
  The normaliser's output array as one function of the two argument arrays.  A grid point writes one block of 1024 rows;
  inside the block the four column bands are the four heads' normalised rows; the eight blocks tile the 8192 × 1024 array.
-/
import proofs.«102200_j24223615549685_1_alg».proof.Proof.NormBody
import proofs.«102200_j24223615549685_1_alg».proof.Proof.NormPay
import proofs.«102200_j24223615549685_1_alg».proof.Proof.Spec
import Idealize.ShloMosaic.Lib.ValueIdx
import Idealize.ShloMosaic.Lib.Pipeline.Value
import Idealize.ShloMosaic.Lib.Pipeline.FrameBody

set_option maxRecDepth 16384

noncomputable section

open scoped BigOperators

namespace Cert.KernelIdeal.NormValue

open Cert.KernelIdeal Cert.KernelIdeal.Gen
open Idealize.ShloMosaic Idealize.ShloMosaic.TcCoe Idealize.ShloMosaic.ValueIdx
open Idealize.ShloMosaic.Pipeline (Dat)

theorem hz : (![0, 0] : Fin 2 → Nat) = fun _ => 0 := funext fun a => by fin_cases a <;> rfl

/-! ## The four bands of the block, read at an index

The buffer is the overlay of four stores, the last first.  An index of band `h` is the image of a band index under the
band's rectangle; the bands after it in store order do not hold it (their columns start later), so it reads band `h`'s
payload. -/

section Bands

variable (p3 p2 p1 p0 : Vec Ideal S1024x256 .bf16)

/-- Columns `768 …` read the last store. -/
theorem band3 (r : Fin 1024) (d : Fin 256) :
    View.canon [⟨Norm.rO3, p3⟩, ⟨Norm.rO2, p2⟩, ⟨Norm.rO1, p1⟩, ⟨Norm.rO0, p0⟩] (Norm.rO3.emb (ix2 r d)) = p3 (ix2 r d) :=
  View.canon_cons_emb Norm.rO3 p3 _ (ix2 r d)

/-- Columns `512 … 767` are off the last store and read the one before it. -/
theorem band2 (r : Fin 1024) (d : Fin 256) :
    View.canon [⟨Norm.rO3, p3⟩, ⟨Norm.rO2, p2⟩, ⟨Norm.rO1, p1⟩, ⟨Norm.rO0, p0⟩] (Norm.rO2.emb (ix2 r d)) = p2 (ix2 r d) := by
  refine (View.canon_cons_of_not_mem _ _ (fun h => ?_)).trans (View.canon_cons_emb Norm.rO2 p2 _ (ix2 r d))
  rw [Rect.mem_set_unit] at h
  have h1 : 768 ≤ 512 + 1 * d.val := (h 1).1
  omega

/-- Columns `256 … 511` are off the last two stores. -/
theorem band1 (r : Fin 1024) (d : Fin 256) :
    View.canon [⟨Norm.rO3, p3⟩, ⟨Norm.rO2, p2⟩, ⟨Norm.rO1, p1⟩, ⟨Norm.rO0, p0⟩] (Norm.rO1.emb (ix2 r d)) = p1 (ix2 r d) := by
  refine (View.canon_cons_of_not_mem _ _ (fun h => ?_)).trans
    ((View.canon_cons_of_not_mem _ _ (fun h => ?_)).trans (View.canon_cons_emb Norm.rO1 p1 _ (ix2 r d)))
  · rw [Rect.mem_set_unit] at h
    have h1 : 768 ≤ 256 + 1 * d.val := (h 1).1
    omega
  · rw [Rect.mem_set_unit] at h
    have h1 : 512 ≤ 256 + 1 * d.val := (h 1).1
    omega

/-- Columns `0 … 255` are off the last three stores. -/
theorem band0 (r : Fin 1024) (d : Fin 256) :
    View.canon [⟨Norm.rO3, p3⟩, ⟨Norm.rO2, p2⟩, ⟨Norm.rO1, p1⟩, ⟨Norm.rO0, p0⟩] (Norm.rO0.emb (ix2 r d)) = p0 (ix2 r d) := by
  refine (View.canon_cons_of_not_mem _ _ (fun h => ?_)).trans
    ((View.canon_cons_of_not_mem _ _ (fun h => ?_)).trans
      ((View.canon_cons_of_not_mem _ _ (fun h => ?_)).trans (View.canon_cons_emb Norm.rO0 p0 _ (ix2 r d))))
  · rw [Rect.mem_set_unit] at h
    have h1 : 768 ≤ 0 + 1 * d.val := (h 1).1
    omega
  · rw [Rect.mem_set_unit] at h
    have h1 : 512 ≤ 0 + 1 * d.val := (h 1).1
    omega
  · rw [Rect.mem_set_unit] at h
    have h1 : 256 ≤ 0 + 1 * d.val := (h 1).1
    omega

end Bands

/-! ## One entry of the block from the two input blocks -/

/-- Entry `(r, 256·h + d)` of the block: row `r` of the rows block scaled by row `h` of the table, at feature `d`, times the
    reciprocal square root of the clamped squared length of that scaled row. -/
def blockUnit (x0 : Vec Ideal S1024x256 .f32) (a : Vec Ideal S4x256 .f32) (r : Fin 1024) (h : Fin 4) (d : Fin 256) : EReal :=
  (a (ix2 h d) * x0 (ix2 r d))
    * Ideal.rsqrt (max (∑ e : Fin 256, (a (ix2 h e) * x0 (ix2 r e)) * (a (ix2 h e) * x0 (ix2 r e))) Cert.Attentive.eps)

/-- A band's entry over a loaded table row that is row `h` of the table is the block's entry of head `h`. -/
theorem rowUnit_eq (v v' : Vec Ideal S1024x256 .f32) (a1 : Vec Ideal S1x256 .f32) (a : Vec Ideal S4x256 .f32) (h : Fin 4)
    (hv : v = v') (ha : ∀ e : Fin 256, a1 (ix2 (0 : Fin 1) e) = a (ix2 h e)) (r : Fin 1024) (d : Fin 256) :
    NormPay.rowUnit v a1 r d = blockUnit v' a r h d := by
  subst hv
  unfold NormPay.rowUnit blockUnit
  simp only [ha]

/-- The load of table row `h` reads row `h`. -/
theorem ldA0 (a : Vec Ideal S4x256 .f32) (e : Fin 256) : View.ld a Norm.rA0 (ix2 (0 : Fin 1) e) = a (ix2 (0 : Fin 4) e) := by
  show a (Norm.rA0.idx (ix2 (0 : Fin 1) e)) = a (ix2 (0 : Fin 4) e)
  congr 1; funext b; apply Fin.ext
  match b with
  | ⟨0, _⟩ => rfl
  | ⟨1, _⟩ => show 0 + 1 * e.val = e.val; omega
theorem ldA1 (a : Vec Ideal S4x256 .f32) (e : Fin 256) : View.ld a Norm.rA1 (ix2 (0 : Fin 1) e) = a (ix2 (1 : Fin 4) e) := by
  show a (Norm.rA1.idx (ix2 (0 : Fin 1) e)) = a (ix2 (1 : Fin 4) e)
  congr 1; funext b; apply Fin.ext
  match b with
  | ⟨0, _⟩ => rfl
  | ⟨1, _⟩ => show 0 + 1 * e.val = e.val; omega
theorem ldA2 (a : Vec Ideal S4x256 .f32) (e : Fin 256) : View.ld a Norm.rA2 (ix2 (0 : Fin 1) e) = a (ix2 (2 : Fin 4) e) := by
  show a (Norm.rA2.idx (ix2 (0 : Fin 1) e)) = a (ix2 (2 : Fin 4) e)
  congr 1; funext b; apply Fin.ext
  match b with
  | ⟨0, _⟩ => rfl
  | ⟨1, _⟩ => show 0 + 1 * e.val = e.val; omega
theorem ldA3 (a : Vec Ideal S4x256 .f32) (e : Fin 256) : View.ld a Norm.rA3 (ix2 (0 : Fin 1) e) = a (ix2 (3 : Fin 4) e) := by
  show a (Norm.rA3.idx (ix2 (0 : Fin 1) e)) = a (ix2 (3 : Fin 4) e)
  congr 1; funext b; apply Fin.ext
  match b with
  | ⟨0, _⟩ => rfl
  | ⟨1, _⟩ => show 0 + 1 * e.val = e.val; omega

/-- The block the body leaves, at row `r` and column `k = 256·h + d`. -/
theorem normOut_apply (x0 : Vec Ideal S1024x256 .f32) (a : Vec Ideal S4x256 .f32) (r : Fin 1024) (h : Fin 4) (d : Fin 256)
    (k : Fin 1024) (hk : k.val = 256 * h.val + d.val) :
    Norm.normOut (F := Ideal) x0 a (ix2 r k) = blockUnit x0 a r h d := by
  unfold Norm.normOut
  match h, hk with
  | ⟨0, _⟩, hk =>
    have hk' : k.val = 0 + d.val := hk
    have e : (ix2 r k : S1024x1024.Idx) = Norm.rO0.emb (ix2 r d) := by
      funext b; apply Fin.ext
      match b with
      | ⟨0, _⟩ => show r.val = 0 + 1 * r.val; omega
      | ⟨1, _⟩ => show k.val = 0 + 1 * d.val; omega
    rw [e]
    refine (band0 _ _ _ _ r d).trans ?_
    rw [NormPay.pay2_apply]
    exact rowUnit_eq _ x0 _ a 0 (View.ld_unit_zero (S := S1024x256) hz _ x0) (ldA0 a) r d
  | ⟨1, _⟩, hk =>
    have hk' : k.val = 256 + d.val := hk
    have e : (ix2 r k : S1024x1024.Idx) = Norm.rO1.emb (ix2 r d) := by
      funext b; apply Fin.ext
      match b with
      | ⟨0, _⟩ => show r.val = 0 + 1 * r.val; omega
      | ⟨1, _⟩ => show k.val = 256 + 1 * d.val; omega
    rw [e]
    refine (band1 _ _ _ _ r d).trans ?_
    rw [NormPay.pay3_apply]
    exact rowUnit_eq _ x0 _ a 1 (View.ld_unit_zero (S := S1024x256) hz _ x0) (ldA1 a) r d
  | ⟨2, _⟩, hk =>
    have hk' : k.val = 512 + d.val := hk
    have e : (ix2 r k : S1024x1024.Idx) = Norm.rO2.emb (ix2 r d) := by
      funext b; apply Fin.ext
      match b with
      | ⟨0, _⟩ => show r.val = 0 + 1 * r.val; omega
      | ⟨1, _⟩ => show k.val = 512 + 1 * d.val; omega
    rw [e]
    refine (band2 _ _ _ _ r d).trans ?_
    rw [NormPay.pay4_apply]
    exact rowUnit_eq _ x0 _ a 2 (View.ld_unit_zero (S := S1024x256) hz _ x0) (ldA2 a) r d
  | ⟨3, _⟩, hk =>
    have hk' : k.val = 768 + d.val := hk
    have e : (ix2 r k : S1024x1024.Idx) = Norm.rO3.emb (ix2 r d) := by
      funext b; apply Fin.ext
      match b with
      | ⟨0, _⟩ => show r.val = 0 + 1 * r.val; omega
      | ⟨1, _⟩ => show k.val = 768 + 1 * d.val; omega
    rw [e]
    refine (band3 _ _ _ _ r d).trans ?_
    rw [NormPay.pay1_apply]
    exact rowUnit_eq _ x0 _ a 3 (View.ld_unit_zero (S := S1024x256) hz _ x0) (ldA3 a) r d

/-- The block's entry is the feature matrix's, when row `r` of the rows block is row `n` of `X` and the table block is `A`. -/
theorem blockUnit_eq_feat (x0 : Vec Ideal S1024x256 .f32) (a : Vec Ideal S4x256 .f32)
    (X : Cert.Attentive.SX.Idx → EReal) (A : Cert.Attentive.SA.Idx → EReal) (r : Fin 1024) (n : Fin 8192) (k : Fin 1024)
    (hx : ∀ e : Fin 256, x0 (ix2 r e) = X (ix2 n e)) (ha : ∀ (h : Fin 4) (e : Fin 256), a (ix2 h e) = A (ix2 h e)) :
    blockUnit x0 a r ⟨k.val / 256, by omega⟩ ⟨k.val % 256, by omega⟩ = Cert.Attentive.feat X A (ix2 n k) := by
  unfold blockUnit
  simp only [hx, ha]
  rfl

/-! ## From blocks to the array -/

/-- The printed index maps, decided over the grid: the rows window and the output window are at block `(t, 0)`, the table
    window at block `(0, 0)`. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- Row `r` of the rows block at point `t` is row `1024·t + r` of `x`. -/
theorem blk0_apply (c : Dev nD) (t : Fin cfg0.N) (r : Fin 1024) (e : Fin 256) (n : Fin 8192) (hn : n.val = 1024 * t.val + r.val) :
    (Norm.blk V c 0 t : Vec Ideal S1024x256 .f32) (ix2 r e) = (V c main_arg0 : S8192x256.Idx → EReal) (ix2 n e) := by
  obtain ⟨e0, e1, -⟩ := idx_facts t
  unfold Norm.blk
  show V c main_arg0 (((cfg0.win 0).blk t).view.emb (ix2 r e)) = V c main_arg0 (ix2 n e)
  congr 1
  funext b; apply Fin.ext
  match b with
  | ⟨0, _⟩ => show win0_0.index t (0 : Fin 2) * 1024 + 1 * r.val = n.val; omega
  | ⟨1, _⟩ => show win0_0.index t (1 : Fin 2) * 256 + 1 * e.val = e.val; omega

/-- The table block at every point is the table. -/
theorem blk1_apply (c : Dev nD) (t : Fin cfg0.N) (h : Fin 4) (e : Fin 256) :
    (Norm.blk V c 1 t : Vec Ideal S4x256 .f32) (ix2 h e) = (V c main_arg1 : S4x256.Idx → EReal) (ix2 h e) := by
  obtain ⟨-, -, e2, e3, -⟩ := idx_facts t
  unfold Norm.blk
  show V c main_arg1 (((cfg0.win 1).blk t).view.emb (ix2 h e)) = V c main_arg1 (ix2 h e)
  congr 1
  funext b; apply Fin.ext
  match b with
  | ⟨0, _⟩ => show win0_1.index t (0 : Fin 2) * 4 + 1 * h.val = h.val; omega
  | ⟨1, _⟩ => show win0_1.index t (1 : Fin 2) * 256 + 1 * e.val = e.val; omega

/-- Entry `(r, k)` of the output block at point `t` is entry `(1024·t + r, k)` of the array. -/
theorem blk2_emb (t : Fin cfg0.N) (r : Fin 1024) (k : Fin 1024) (n : Fin 8192) (hn : n.val = 1024 * t.val + r.val) :
    (((cfg0.win 2).blk t).view.emb (ix2 r k) : S8192x1024.Idx) = ix2 n k := by
  obtain ⟨-, -, -, -, e4, e5⟩ := idx_facts t
  funext b; apply Fin.ext
  match b with
  | ⟨0, _⟩ => show win0_2.index t (0 : Fin 2) * 1024 + 1 * r.val = n.val; omega
  | ⟨1, _⟩ => show win0_2.index t (1 : Fin 2) * 1024 + 1 * k.val = k.val; omega

/-- What point `t` writes back is block `t` of the feature matrix of the argument arrays as the region finds them. -/
theorem flushed_eq (c : Dev nD) (t : Fin cfg0.N) :
    (Norm.dat (F := Ideal) V c).flushed 2 t
      = ((cfg0.win 2).blk t).view.read (Elt Ideal) (Cert.Attentive.feat (V c main_arg0) (V c main_arg1)) := by
  show (cfg0.win 2).cut (grid0.coords t) ((Norm.dat V c).after 2 t) = _
  rw [Norm.after2]
  funext j
  obtain ⟨r, k, rfl⟩ : ∃ (r : Fin 1024) (k : Fin 1024), j = ix2 r k := ⟨j 0, j 1, eq_ix2 j⟩
  have hN : grid0.N = 8 := N_0
  have ht : t.val < 8 := by have h : t.val < grid0.N := t.isLt; omega
  obtain ⟨n, hn⟩ : ∃ n : Fin 8192, n.val = 1024 * t.val + r.val := ⟨⟨1024 * t.val + r.val, by omega⟩, rfl⟩
  show Norm.normOut (Norm.blk V c 0 t) (Norm.blk V c 1 t) (ix2 r k)
    = Cert.Attentive.feat (V c main_arg0) (V c main_arg1) (((cfg0.win 2).blk t).view.emb (ix2 r k))
  rw [blk2_emb t r k n hn]
  refine (normOut_apply (Norm.blk V c 0 t) (Norm.blk V c 1 t) r ⟨k.val / 256, by omega⟩ ⟨k.val % 256, by omega⟩ k
    (by show k.val = 256 * (k.val / 256) + k.val % 256; omega)).trans ?_
  exact blockUnit_eq_feat (Norm.blk V c 0 t) (Norm.blk V c 1 t) (V c main_arg0) (V c main_arg1) r n k
    (fun e => blk0_apply V c t r e n hn) (fun h e => blk1_apply V c t h e)

/-- An index of the array is in point `t`'s block iff each coordinate is in the block's range on its axis. -/
theorem mem_blk (t : Fin cfg0.N) (i : S8192x1024.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v0).slice (win0_2.rect t)).set ↔ _
  rw [View.set_slice_whole, Rect.mem_set_unit]
  exact Iff.rfl

/-- The eight blocks cover the array: row `n` is in block `n / 1024`. -/
theorem cover (i : S8192x1024.Idx) :
    ∃ t : Fin cfg0.N, (cfg0.win 2).flush t = true ∧ i ∈ ((cfg0.win 2).blk t).view.set := by
  have hi0 : (i 0).val < 8192 := (i 0).isLt
  have hi1 : (i 1).val < 1024 := (i 1).isLt
  have hN : grid0.N = 8 := N_0
  obtain ⟨t, ht⟩ : ∃ t : Fin cfg0.N, t.val = (i 0).val / 1024 := ⟨⟨(i 0).val / 1024, by show _ < grid0.N; omega⟩, rfl⟩
  obtain ⟨-, -, -, -, e4, e5⟩ := idx_facts t
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- The output array after the region is the feature matrix of the two argument arrays as the region finds them. -/
theorem final (c : Dev nD) :
    (Cert.KernelIdeal.Norm.dat (F := Ideal) V c).arrAt 2 cfg0.N = Cert.Attentive.feat (V c main_arg0) (V c main_arg1) :=
  (Norm.dat (F := Ideal) V c).arrAt_eq_of_cover 2 (Cert.Attentive.feat (V c main_arg0) (V c main_arg1))
    (fun t _ => flushed_eq V c t) cover

end Cert.KernelIdeal.NormValue

end
-- ==== Proof.GramPay.lean ====
/-
  The Gram product's payload read at an index, over the extended reals: from two 1024 × 1024 blocks `p`, `q`, entry
  `(i, j)` is `(∑ k, p (i, k) · q (j, k))` times one quarter — the rows of `p` against the rows of `q`.
-/
import proofs.«102200_j24223615549685_1_alg».proof.Proof.Gen.KernelIdeal.Skeleton
import proofs.«102200_j24223615549685_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.GramPay

open Cert.KernelIdeal Cert.KernelIdeal.Gen
open Idealize.ShloMosaic Idealize.ShloMosaic.ValueIdx

/-! ## The product's operand indices

The product contracts axis 1 of both operands and keeps axis 0 of both: at result index `i` and contraction index `q`
the left operand is read at `(i 0, q)` and the right one at `(i 1, q)`. -/

/-- The left operand's row is the result's row. -/
theorem lhs_axis0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl

/-- The left operand's column is the contraction index. -/
theorem lhs_axis1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q

/-- The right operand's row is the result's column. -/
theorem rhs_axis0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl

/-- The right operand's column is the contraction index. -/
theorem rhs_axis1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-! ## The product at an index -/

/-- The product of two 1024 × 1024 blocks along their columns, into a zero accumulator, read at `(i, j)`: row `i` of the
    left block against row `j` of the right one. The sum over the one-axis contraction index is re-indexed by that axis's
    coordinate. -/
theorem rows_apply (p q : FVec Ideal S1024x1024 .bf16) (i j : Fin 1024) :
    matmul (F := Ideal) dot_S1024x1024_S1024x1024_S1024x1024_1_1_0_0_n_n none p q (constant (F := Ideal) S1024x1024 .f32 0x00000000#32) (ix2 i j)
      = ∑ k : Fin 1024, p (ix2 i k) * q (ix2 j k) := by
  simp only [matmul]
  rw [Ideal.matmul_constant_zero_apply, ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 i j) ((contrEquiv1 dot_S1024x1024_S1024x1024_S1024x1024_1_1_0_0_n_n 1024 rfl rfl).symm k) = ix2 i k := funext fun a => Fin.ext (by
    match a with
    | ⟨0, _⟩ => exact lhs_axis0 _ _
    | ⟨1, _⟩ => exact (lhs_axis1 _ _).trans hk)
  have er : dot_S1024x1024_S1024x1024_S1024x1024_1_1_0_0_n_n.rhsIdx (ix2 i j) ((contrEquiv1 dot_S1024x1024_S1024x1024_S1024x1024_1_1_0_0_n_n 1024 rfl rfl).symm k) = ix2 j k := funext fun a => Fin.ext (by
    match a with
    | ⟨0, _⟩ => exact rhs_axis0 _ _
    | ⟨1, _⟩ => exact (rhs_axis1 _ _).trans hk)
  rw [el, er]

/-! ## The payload: the two casts are to the blocks' own shape, the scale acts entry by entry -/

theorem pay_apply (p q : Vec Ideal S1024x1024 .bf16) (i j : Fin 1024) :
    k1_pay1 (F := Ideal) p q (ix2 i j) = (∑ k : Fin 1024, p (ix2 i k) * q (ix2 j k)) * Cert.Attentive.quarter := by
  unfold k1_pay1
  refine congrArg (· * Cert.Attentive.quarter) ?_
  refine Eq.trans ?_ (rows_apply p q i j)
  rw [shapeCast_self, shapeCast_self]

end Cert.KernelIdeal.GramPay

end
-- ==== Proof.GramValue.lean ====
/-
  The Gram region's result array as one function of the feature array.  Grid point `t` of the 8 × 8 grid reads row
  blocks `t / 8` and `t % 8` of the 8192 × 1024 feature array and writes block `(t / 8, t % 8)` of the 8192 × 8192
  result: entry `(a, b)` of that block is the row `1024 · (t / 8) + a` of the feature array against its row
  `1024 · (t % 8) + b`, summed over the 1024 columns, times one quarter.  The 64 blocks cover the result, so after the
  region the result array is the scaled Gram matrix of the feature array as the region found it.
-/
import proofs.«102200_j24223615549685_1_alg».proof.Proof.GramBody
import proofs.«102200_j24223615549685_1_alg».proof.Proof.GramPay
import proofs.«102200_j24223615549685_1_alg».proof.Proof.Spec
import Idealize.ShloMosaic.Lib.Pipeline.Value
import Idealize.ShloMosaic.Lib.ValueIdx

set_option maxRecDepth 16384

noncomputable section

open scoped BigOperators

namespace Cert.KernelIdeal.GramValue

open Cert.KernelIdeal Cert.KernelIdeal.Gen
open Idealize.ShloMosaic Idealize.ShloMosaic.TcCoe Idealize.ShloMosaic.ValueIdx Idealize.SL.Sem
open Idealize.ShloMosaic.Pipeline (Dat)

-- the TensorCore's buffer contents when the region is entered
variable (V : (c : Dev nD) → (b : Ref sig .tc) → Buf (Elt Ideal) ((c : Thread nD τ).loc b))

/-- The whole-block rectangle's offsets are zero on both axes. -/
theorem hz : (![0, 0] : Fin 2 → Nat) = fun _ => 0 := funext fun a => by fin_cases a <;> rfl

/-- The windows' index maps over the grid: the left window follows the point's row coordinate, the right window its
    column coordinate, the output window both. -/
theorem idx_facts : ∀ t : Fin cfg1.N,
    win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = t.val / 8 ∧ win1_2.index t (1 : Fin 2) = t.val % 8 :=
  (by decide +kernel : ∀ t : Fin grid1.N, _)

/-- Entry `(a, k)` of the left window's block at point `t` is entry `(1024 · (t / 8) + a, k)` of the feature array. -/
theorem blk0_apply (c : Dev nD) (t : Fin cfg1.N) (a k : Fin 1024) (r : Fin 8192) (hr : r.val = t.val / 8 * 1024 + a.val) :
    (Gram.blk V c 0 t : Vec Ideal S1024x1024 .bf16) (ix2 a k) = (V c main_v0 : Cert.Attentive.SY.Idx → EReal) (ix2 r k) := by
  obtain ⟨e0, e1, -⟩ := idx_facts t
  unfold Gram.blk
  rw [View.read_apply]
  show V c main_v0 _ = V c main_v0 _
  congr 1
  funext x
  apply Fin.ext
  match x with
  | ⟨0, _⟩ => show win1_0.index t 0 * 1024 + 1 * a.val = r.val; rw [e0, hr]; omega
  | ⟨1, _⟩ => show win1_0.index t 1 * 1024 + 1 * k.val = k.val; rw [e1]; omega

/-- Entry `(b, k)` of the right window's block at point `t` is entry `(1024 · (t % 8) + b, k)` of the feature array. -/
theorem blk1_apply (c : Dev nD) (t : Fin cfg1.N) (b k : Fin 1024) (s : Fin 8192) (hs : s.val = t.val % 8 * 1024 + b.val) :
    (Gram.blk V c 1 t : Vec Ideal S1024x1024 .bf16) (ix2 b k) = (V c main_v0 : Cert.Attentive.SY.Idx → EReal) (ix2 s k) := by
  obtain ⟨-, -, e2, e3, -⟩ := idx_facts t
  unfold Gram.blk
  rw [View.read_apply]
  show V c main_v0 _ = V c main_v0 _
  congr 1
  funext x
  apply Fin.ext
  match x with
  | ⟨0, _⟩ => show win1_1.index t 0 * 1024 + 1 * b.val = s.val; rw [e2, hs]; omega
  | ⟨1, _⟩ => show win1_1.index t 1 * 1024 + 1 * k.val = k.val; rw [e3]; omega

/-- If row `a` of block `p` is row `r` of a matrix `y` and row `b` of block `q` is its row `s`, the payload of the two
    blocks at `(a, b)` is entry `(r, s)` of the scaled Gram matrix of `y`. -/
theorem pay_at (p q : Vec Ideal S1024x1024 .bf16) (y : Cert.Attentive.SY.Idx → EReal) (a b : Fin 1024) (r s : Fin 8192)
    (hp : ∀ k : Fin 1024, p (ix2 a k) = y (ix2 r k)) (hq : ∀ k : Fin 1024, q (ix2 b k) = y (ix2 s k)) :
    k1_pay1 (F := Ideal) p q (ix2 a b) = Cert.Attentive.gramOf y (ix2 r s) := by
  rw [GramPay.pay_apply]
  show _ = (∑ k : Fin 1024, y (ix2 r k) * y (ix2 s k)) * Cert.Attentive.quarter
  congr 1
  exact Finset.sum_congr rfl fun k _ => by rw [hp k, hq k]

/-- What point `t` writes back is block `(t / 8, t % 8)` of the scaled Gram matrix of the feature array. -/
theorem flushed_eq (c : Dev nD) (t : Fin cfg1.N) :
    (Gram.dat V c).flushed 2 t = ((cfg1.win 2).blk t).view.read (Elt Ideal) (Cert.Attentive.gramOf (V c main_v0)) := by
  show (cfg1.win 2).cut (grid1.coords t) ((Gram.dat V c).after 2 t) = _
  rw [Gram.after2]
  unfold Gram.gramOut
  rw [View.canon_unit_zero hz]
  simp only [View.ld_unit_zero (S := S1024x1024) hz]
  obtain ⟨-, -, -, -, e4, e5⟩ := idx_facts t
  have ht : t.val < 64 := lt_of_lt_of_eq t.isLt N_1
  funext j
  obtain ⟨a, b, rfl⟩ : ∃ (a b : Fin 1024), j = ix2 a b := ⟨j 0, j 1, eq_ix2 (n0 := 1024) (n1 := 1024) j⟩
  show k1_pay1 (F := Ideal) (Gram.blk V c 0 t) (Gram.blk V c 1 t) (ix2 a b)
    = Cert.Attentive.gramOf (V c main_v0) (((cfg1.win 2).blk t).view.emb (ix2 a b))
  refine (pay_at (Gram.blk V c 0 t) (Gram.blk V c 1 t) (V c main_v0) a b
    ⟨t.val / 8 * 1024 + a.val, by have := a.isLt; omega⟩ ⟨t.val % 8 * 1024 + b.val, by have := b.isLt; omega⟩
    (fun k => blk0_apply V c t a k _ rfl) (fun k => blk1_apply V c t b k _ rfl)).trans ?_
  congr 1
  funext x
  apply Fin.ext
  match x with
  | ⟨0, _⟩ => show t.val / 8 * 1024 + a.val = win1_2.index t 0 * 1024 + 1 * a.val; rw [e4]; omega
  | ⟨1, _⟩ => show t.val % 8 * 1024 + b.val = win1_2.index t 1 * 1024 + 1 * b.val; rw [e5]; omega

/-- An index of the result is in point `t`'s block iff each coordinate is in the block's range on its axis. -/
theorem mem_blk (t : Fin cfg1.N) (i : S8192x8192.Idx) :
    i ∈ ((cfg1.win 2).blk t).view.set ↔ ∀ a : Fin 2, win1_2.index t a * S1024x1024.size a ≤ (i a).val ∧ (i a).val < win1_2.index t a * S1024x1024.size a + S1024x1024.size a := by
  show i ∈ ((View.whole main_v1).slice (win1_2.rect t)).set ↔ _
  rw [View.set_slice_whole, Rect.mem_set_unit]
  exact Iff.rfl

/-- Every entry of the result lies in the block of the point `8 · (r / 1024) + s / 1024`. -/
theorem cover (i : S8192x8192.Idx) :
    ∃ t : Fin cfg1.N, (cfg1.win 2).flush t = true ∧ i ∈ ((cfg1.win 2).blk t).view.set := by
  have hi0 : (i 0).val < 8192 := (i 0).isLt
  have hi1 : (i 1).val < 8192 := (i 1).isLt
  have hN : cfg1.N = 64 := N_1
  let t : Fin cfg1.N := ⟨(i 0).val / 1024 * 8 + (i 1).val / 1024, by rw [hN]; omega⟩
  obtain ⟨-, -, -, -, e4, e5⟩ := idx_facts t
  have q0 : win1_2.index t (0 : Fin 2) = (i 0).val / 1024 := by rw [e4]; show ((i 0).val / 1024 * 8 + (i 1).val / 1024) / 8 = _; omega
  have q1 : win1_2.index t (1 : Fin 2) = (i 1).val / 1024 := by rw [e5]; show ((i 0).val / 1024 * 8 + (i 1).val / 1024) % 8 = _; omega
  refine ⟨t, flush1_2 t, ?_⟩
  rw [mem_blk]
  intro a
  match a with
  | ⟨0, _⟩ => show win1_2.index t (0 : Fin 2) * 1024 ≤ (i 0).val ∧ (i 0).val < win1_2.index t (0 : Fin 2) * 1024 + 1024; rw [q0]; omega
  | ⟨1, _⟩ => show win1_2.index t (1 : Fin 2) * 1024 ≤ (i 1).val ∧ (i 1).val < win1_2.index t (1 : Fin 2) * 1024 + 1024; rw [q1]; omega

/-- The result array after the region: the scaled Gram matrix of the feature array as the region found it. -/
theorem final (c : Dev nD) :
    (Cert.KernelIdeal.Gram.dat (F := Ideal) V c).arrAt 2 cfg1.N = Cert.Attentive.gramOf (V c main_v0) :=
  (Gram.dat V c).arrAt_eq_of_cover 2 (Cert.Attentive.gramOf (V c main_v0)) (fun t _ => flushed_eq V c t) cover

end Cert.KernelIdeal.GramValue

end
-- ==== Proof.KernelValue.lean ====
/-
  The idealized kernel program's result, over the extended reals.  Region 1 leaves in the result array the
  quarter-scaled Gram matrix of the feature array it was entered with; that array is what region 0 left, the
  feature matrix of the two arguments.  So the run ends with the result at `gram x a`.
-/
import proofs.«102200_j24223615549685_1_alg».proof.Proof.Regs
import proofs.«102200_j24223615549685_1_alg».proof.Proof.NormValue
import proofs.«102200_j24223615549685_1_alg».proof.Proof.GramValue

noncomputable section

namespace Cert.KernelIdeal.Whole

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- Region 1's final result array is the specification's function of the launch contents of the arguments. -/
theorem result_eq (c : Dev nD) :
    (Gram.dat (E1 m) c).arrAt 2 cfg1.N
      = Cert.Attentive.gram (m ((c.tc : Thread nD τ).loc main_arg0)) (m ((c.tc : Thread nD τ).loc main_arg1)) := by
  rw [GramValue.final (E1 m) c]
  show Cert.Attentive.gramOf (W1 m c (Proc.devRef .tc main_v0)) = _
  rw [W1_v0, NormValue.final (E0 m) c]
  rfl

/-- The run at the ideal instance, with the result named. -/
theorem run_value : θ_run (defs (F := Ideal)) (onTc (τ := τ) (main (F := Ideal))) ⟨m, fun _ => 0, ρ⟩ (fun r => ∀ c : Dev nD,
      r.2.mem ((c.tc : Thread nD τ).loc main_v1)
        = Cert.Attentive.gram (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (defs (F := Ideal)) _ _).mono (fun _ h c => ⟨(h c).1.trans (result_eq m c), (h c).2⟩) (run (F := Ideal) m ρ)

end Cert.KernelIdeal.Whole

end
-- ==== Proof.RefValue.lean ====
/-
  The reference program, read at the ideal instance (floats are extended reals), computes the scaled Gram matrix
  `Cert.Attentive.gram` of its two arguments, index by index.

  For head `h`, row `n` and feature `d` the product of the two broadcast arguments is `a (h, d) · x (n, d)`; the sum of
  its squares over `d`, started from the zero word, is the squared length of the scaled row; the maximum with the
  clamp word and the reciprocal square root give the normalising factor; the transposition and the reshape lay the
  four heads side by side, column `k` of row `n` being head `k / 256` at feature `k % 256`, because
  `(1024 n + k) / 1024 = n`, `(1024 n + k) / 256 % 4 = k / 256` and `(1024 n + k) % 256 = k % 256` for `k < 1024`;
  the product with the transpose is the sum over the 1024 columns; and the quotient by the word `4.0` is the product
  with the word `0.25` on every extended real, since `4` is a real other than zero.
-/
import proofs.«102200_j24223615549685_1_alg».proof.Proof.Gen.ReferenceIdeal.Run
import proofs.«102200_j24223615549685_1_alg».proof.Proof.Gen.ReferenceIdeal.Read
import proofs.«102200_j24223615549685_1_alg».proof.Proof.Spec
import Idealize.ShloMosaic.PureOps.Ideal.Laws
import Idealize.ShloMosaic.Lib.ValueIdx

noncomputable section

open scoped BigOperators

namespace Cert.Attentive.Ref

open Cert.ReferenceIdeal Cert.ReferenceIdeal.Read Idealize.ShloMosaic Idealize.ShloMosaic.ValueIdx
  Idealize.ShloMosaic.TcCoe Idealize.SL.Sem Idealize.ShloMosaic.StableHlo

/-! ## The divisor and its reciprocal as reals -/

/-- The single-precision word `0x40800000` denotes the real `4`. -/
theorem ofBits_four : Ideal.ofBits .f32 0x40800000#32 = ((4 : ℝ) : EReal) := by
  simp [Ideal.ofBits, Ideal.ieee, -EReal.coe_mul]; norm_num

/-- The single-precision word `0x3E800000` denotes the real `1 / 4`. -/
theorem ofBits_quarter : Ideal.ofBits .f32 0x3E800000#32 = ((1 / 4 : ℝ) : EReal) := by
  simp [Ideal.ofBits, Ideal.ieee, -EReal.coe_mul]; norm_num

/-- Division by four is multiplication by one quarter, at the infinities too. -/
theorem div_four (y : EReal) : Ideal.div y (Ideal.ofBits .f32 0x40800000#32) = y * Cert.Attentive.quarter := by
  rw [ofBits_four, Ideal.div_coe (by norm_num : (4 : ℝ) ≠ 0), Cert.Attentive.quarter, ofBits_quarter]

/-! ## The stages at an index -/

section Stages

variable (x0 : (⟨S8192x256, .f32⟩ : BufTy).Contents (Elt Ideal)) (x1 : (⟨S4x256, .f32⟩ : BufTy).Contents (Elt Ideal))

/-- The product of the two broadcast arguments at `(h, n, d)` is `a (h, d) · x (n, d)`. -/
theorem scaled_at (h : Fin 4) (n : Fin 8192) (d : Fin 256) :
    val_main_v4 (F := Ideal) x0 x1 (ix3 h n d) = Cert.Attentive.scaled x0 x1 h n d := by
  rw [val_main_v4_apply, val_main_v2_apply, val_main_v0_apply, val_main_v3_apply, val_main_v1_apply]
  have e1 : idx_main_v0 (idx_main_v2 (ix3 h n d)) = ix2 h d :=
    funext fun a => Fin.ext (by match a with | ⟨0, _⟩ => rfl | ⟨1, _⟩ => rfl)
  have e0 : idx_main_v1 (idx_main_v3 (ix3 h n d)) = ix2 n d :=
    funext fun a => Fin.ext (by match a with | ⟨0, _⟩ => rfl | ⟨1, _⟩ => rfl)
  rw [e1, e0]
  rfl

/-- The sum of squares over the features, started from the zero word, is the squared length of the scaled row. -/
theorem sqnorm_at (h : Fin 4) (n : Fin 8192) :
    val_main_v6 (F := Ideal) x0 x1 (ix2 h n) = Cert.Attentive.sqnorm x0 x1 h n := by
  rw [val_main_v6_apply, val_main_cst_apply, Ideal.ofBits_def, Ideal.ofBits_zero_f32, zero_add]
  unfold Cert.Attentive.sqnorm
  refine Finset.sum_congr rfl fun d _ => ?_
  have e : idx_main_v6 (ix2 h n) d = ix3 h n d :=
    funext fun a => Fin.ext (by match a with | ⟨0, _⟩ => rfl | ⟨1, _⟩ => rfl | ⟨2, _⟩ => rfl)
  rw [val_main_v5_apply, e, scaled_at]
  rfl

/-- The clamped squared length: the maximum with the clamp word. -/
theorem clamp_at (h : Fin 4) (n : Fin 8192) (z : Fin 1) :
    val_main_v9 (F := Ideal) x0 x1 (ix3 h n z)
      = max (Cert.Attentive.sqnorm x0 x1 h n) Cert.Attentive.eps := by
  rw [val_main_v9_apply, val_main_v7_apply, val_main_v8_apply, val_main_cst_0_apply]
  have e : idx_main_v7 (ix3 h n z) = ix2 h n :=
    funext fun a => Fin.ext (by match a with | ⟨0, _⟩ => rfl | ⟨1, _⟩ => rfl)
  rw [e, sqnorm_at]
  rfl

/-- The normalised scaled row at `(h, n, d)`. -/
theorem unit_at (h : Fin 4) (n : Fin 8192) (d : Fin 256) :
    val_main_v12 (F := Ideal) x0 x1 (ix3 h n d) = Cert.Attentive.unit x0 x1 h n d := by
  rw [val_main_v12_apply, val_main_v11_apply, val_main_v10_apply, scaled_at]
  have e : idx_main_v11 (ix3 h n d) = ix3 h n (0 : Fin 1) :=
    funext fun a => Fin.ext (by match a with | ⟨0, _⟩ => rfl | ⟨1, _⟩ => rfl | ⟨2, _⟩ => rfl)
  rw [e, clamp_at]
  rfl

/-- The heads side by side: column `k` of row `n` is head `k / 256` at feature `k % 256`. -/
theorem feat_at (n : Fin 8192) (k : Fin 1024) :
    val_main_v14 (F := Ideal) x0 x1 (ix2 n k) = Cert.Attentive.feat x0 x1 (ix2 n k) := by
  have hn : n.val < 8192 := n.isLt
  have hk : k.val < 1024 := k.isLt
  rw [val_main_v14_apply, val_main_v13_apply]
  have e : idx_main_v13 (idx_main_v14 (ix2 n k))
      = ix3 (⟨k.val / 256, by omega⟩ : Fin 4) n (⟨k.val % 256, Nat.mod_lt _ (by decide)⟩ : Fin 256) :=
    funext fun a => Fin.ext (by
      match a with
      | ⟨0, _⟩ => show (n.val * 1024 + k.val) / 256 % 4 = k.val / 256; omega
      | ⟨1, _⟩ => show (n.val * 1024 + k.val) / 1024 = n.val; omega
      | ⟨2, _⟩ => show (n.val * 1024 + k.val) % 256 = k.val % 256; omega)
  rw [e, unit_at]
  rfl

/-- The transposed feature matrix at `(k, n)` is the feature matrix at `(n, k)`. -/
theorem featT_at (k : Fin 1024) (n : Fin 8192) :
    val_main_v15 (F := Ideal) x0 x1 (ix2 k n) = Cert.Attentive.feat x0 x1 (ix2 n k) := by
  rw [val_main_v15_apply]
  have e : idx_main_v15 (ix2 k n) = ix2 n k :=
    funext fun a => Fin.ext (by match a with | ⟨0, _⟩ => rfl | ⟨1, _⟩ => rfl)
  rw [e, feat_at]

end Stages

/-! ## The reference is the scaled Gram matrix -/

/-- The reference's result, at the ideal instance, is the scaled Gram matrix of the feature matrix. -/
theorem ref_eq (x0 : (⟨Cert.ReferenceIdeal.S8192x256, .f32⟩ : BufTy).Contents (Elt Ideal)) (x1 : (⟨Cert.ReferenceIdeal.S4x256, .f32⟩ : BufTy).Contents (Elt Ideal)) :
    Cert.ReferenceIdeal.Read.val_main_v18 (F := Ideal) x0 x1 = Cert.Attentive.gram x0 x1 := by
  funext i
  obtain ⟨p, q, rfl⟩ : ∃ (p q : Fin 8192), i = ix2 p q := ⟨i 0, i 1, eq_ix2 i⟩
  rw [val_main_v18_apply, val_main_v17_apply, val_main_cst_1_apply, val_main_v16_apply, Ideal.hostDivf_def,
    Ideal.ofBits_def, div_four]
  show _ = (∑ k : Fin 1024, Cert.Attentive.feat x0 x1 (ix2 p k) * Cert.Attentive.feat x0 x1 (ix2 q k))
    * Cert.Attentive.quarter
  refine congrArg (· * Cert.Attentive.quarter) (Finset.sum_congr rfl fun k _ => ?_)
  have el : lidx_main_v16 (ix2 p q) k = ix2 p k :=
    funext fun a => Fin.ext (by match a with | ⟨0, _⟩ => rfl | ⟨1, _⟩ => rfl)
  have er : ridx_main_v16 (ix2 p q) k = ix2 k q :=
    funext fun a => Fin.ext (by match a with | ⟨0, _⟩ => rfl | ⟨1, _⟩ => rfl)
  rw [el, er, feat_at, featT_at]

/-- Every weakly fair execution of the reference ends with its result buffer at the scaled Gram matrix of the
    arguments' launch contents, the arguments unchanged. -/
theorem ref_run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v18) = Cert.Attentive.gram (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  (θ_run _ _ _).mono (fun _ h c => ⟨by rw [(h c).1, Cert.ReferenceIdeal.Read.val_main_v18_eq, ref_eq], (h c).2⟩)
    (Cert.ReferenceIdeal.Value.run (F := Ideal) m ρ)

end Cert.Attentive.Ref

end
-- ==== Proof.lean ====
/-
  The certificate: the kernel — a row normaliser followed by a Gram product, two regions of one program —
  against the reference, over the extended reals.

  Both compute, from `x` (8192 × 256) and four attention vectors `a` (4 × 256), the matrix `¼ · Y Yᵀ`, where row `n` of
  `Y` lays side by side, for each head `h`, the row `a_h ⊙ x_n` divided by `√(max (‖a_h ⊙ x_n‖², ε))`.  The kernel
  multiplies by the word 0.25 where the reference divides by 4: on the extended reals these agree at every value,
  so no finiteness of the inputs is used.  The frames: each kernel program runs as its two regions in order, every
  block fetched and written back by the pipeline, neither region writing an argument; the reference is a straight
  line of host operations.  The idealization rewrote nothing, so there is nothing to preserve.
-/
import proofs.«102200_j24223615549685_1_alg».proof.Defs
import proofs.«102200_j24223615549685_1_alg».proof.Proof.Gen.Kernel
import proofs.«102200_j24223615549685_1_alg».proof.Proof.Gen.KernelIdeal
import proofs.«102200_j24223615549685_1_alg».proof.Proof.Gen.ReferenceIdeal
import proofs.«102200_j24223615549685_1_alg».proof.Proof.Gen.Pre_finite_inputs
import proofs.«102200_j24223615549685_1_alg».proof.Proof.Bits.Regs
import proofs.«102200_j24223615549685_1_alg».proof.Proof.KernelValue
import proofs.«102200_j24223615549685_1_alg».proof.Proof.RefValue

noncomputable section

namespace Cert.Proof

open Idealize.ShloMosaic Idealize.SL.Sem

/-- The word-level kernel program runs to the end and leaves its arguments alone. -/
theorem frame_kernel : Cert.frame_Kernel := fun m ρ _ =>
  (θ_run (Cert.Kernel.defs (F := Bits)) _ _).mono (fun _ h c => (h c).2) (Cert.Kernel.Whole.run (F := Bits) m ρ)

/-- So does its idealization. -/
theorem frame_kernelIdeal : Cert.frame_KernelIdeal := fun m ρ _ =>
  (θ_run (Cert.KernelIdeal.defs (F := Ideal)) _ _).mono (fun _ h c => (h c).2) (Cert.KernelIdeal.Whole.run (F := Ideal) m ρ)

/-- The reference is host operations only: its run with the result dropped. -/
theorem frame_referenceIdeal : Cert.frame_ReferenceIdeal := fun m ρ _ =>
  (θ_run (Cert.ReferenceIdeal.defs (F := Ideal)) _ _).mono (fun _ h c => (h c).2) (Cert.ReferenceIdeal.Value.run (F := Ideal) m ρ)

/-- From memories that agree on the arguments both programs end with the result at `gram x a`. -/
theorem algebraic : Cert.algebraic_KernelIdeal_ReferenceIdeal := by
  intro m ρ m' ρ' _ hagree
  refine ⟨fun c => Cert.Attentive.gram
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run_value m ρ, ?_⟩
  refine (θ_run (Cert.ReferenceIdeal.defs (F := Ideal)) _ _).mono (fun _ h c => ⟨(h c).1.trans ?_, (h c).2⟩)
    (Cert.Attentive.Ref.ref_run m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
